-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x75 : Shape := ⟨2, ![50000, 75]⟩
abbrev S1000000x14 : Shape := ⟨2, ![1000000, 14]⟩
abbrev S1000000 : Shape := ⟨1, ![1000000]⟩
abbrev S1000000x2 : Shape := ⟨2, ![1000000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S_ : Shape := ⟨0, ![]⟩

class Facts : Prop where
  bcast_S_S50000x75 : S_.BroadcastsInDim S50000x75 (![] : Fin 0 → Fin S50000x75.rank)
  reducesTo_S50000x75_S_d0_1 : S50000x75.ReducesTo [0, 1] S_
  h_S_ : 0 < S_.numel
  bcast_S_S1000000x14 : S_.BroadcastsInDim S1000000x14 (![] : Fin 0 → Fin S1000000x14.rank)
  reducesTo_S1000000x14_S_d0_1 : S1000000x14.ReducesTo [0, 1] S_
  bcast_S_S75x50 : S_.BroadcastsInDim S75x50 (![] : Fin 0 → Fin S75x50.rank)
  reducesTo_S75x50_S_d0_1 : S75x50.ReducesTo [0, 1] S_
  bcast_S_S50 : S_.BroadcastsInDim S50 (![] : Fin 0 → Fin S50.rank)
  reducesTo_S50_S_d0 : S50.ReducesTo [0] S_
  bcast_S_S14x50 : S_.BroadcastsInDim S14x50 (![] : Fin 0 → Fin S14x50.rank)
  reducesTo_S14x50_S_d0_1 : S14x50.ReducesTo [0, 1] S_
  bcast_S_S100x50 : S_.BroadcastsInDim S100x50 (![] : Fin 0 → Fin S100x50.rank)
  reducesTo_S100x50_S_d0_1 : S100x50.ReducesTo [0, 1] S_
  bcast_S_S150x50 : S_.BroadcastsInDim S150x50 (![] : Fin 0 → Fin S150x50.rank)
  reducesTo_S150x50_S_d0_1 : S150x50.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S50 .f32) (main_arg14 : FVec F S100x50 .f32) (main_arg15 : FVec F S50 .f32) (main_v48 : IVec S_ 1) (main_v49 : FVec F S14x50 .f32) (main_v50 : FVec F S14x50 .f32) : IVec S_ 1 :=
  let main_v51 : IVec S14x50 1 := cmpf .olt main_v49 main_v50
  let main_c_19 : IVec S_ 1 := constantI S_ 1 1#1
  let main_v52 : IVec S_ 1 := (fun x v => Host.reduce IntOp.andi x v reducesTo_S14x50_S_d0_1 h_S_) main_v51 main_c_19
  let main_v53 : IVec S_ 1 := andi main_v48 main_v52
  let main_v54 : FVec F S50 .f32 := Host.absf main_arg13
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S100x50 .f32 := Host.absf main_arg14
  let main_cst_22 : FVec F S_ .f32 := constant S_ .f32 0x7F800000#32
  let main_v60 : FVec F S100x50 .f32 := broadcastInDim S100x50 ![] bcast_S_S100x50 main_cst_22
  let main_v61 : IVec S100x50 1 := cmpf .olt main_v59 main_v60
  let main_c_23 : IVec S_ 1 := constantI S_ 1 1#1
  let main_v62 : IVec S_ 1 := (fun x v => Host.reduce IntOp.andi x v reducesTo_S100x50_S_d0_1 h_S_) main_v61 main_c_23
  let main_v63 : IVec S_ 1 := andi main_v58 main_v62
  let main_v64 : FVec F S50 .f32 := Host.absf main_arg15
  let main_cst_24 : FVec F S_ .f32 := constant S_ .f32 0x7F800000#32
  let main_v65 : FVec F S50 .f32 := broadcastInDim S50 ![] bcast_S_S50 main_cst_24
  let main_v66 : IVec S50 1 := cmpf .olt main_v64 main_v65
  let main_c_25 : IVec S_ 1 := constantI S_ 1 1#1
  let main_v67 : IVec S_ 1 := (fun x v => Host.reduce IntOp.andi x v reducesTo_S50_S_d0 h_S_) main_v66 main_c_25
  fn_part4 (F := F) main_v63 main_v67

def fn_part2 {F : FTy → Type} [FloatOps F] (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v33 : IVec S_ 1) : IVec S_ 1 :=
  let main_v34 : FVec F S50 .f32 := Host.absf main_arg9
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S150x50 .f32 := Host.absf main_arg10
  let main_cst_14 : FVec F S_ .f32 := constant S_ .f32 0x7F800000#32
  let main_v40 : FVec F S150x50 .f32 := broadcastInDim S150x50 ![] bcast_S_S150x50 main_cst_14
  let main_v41 : IVec S150x50 1 := cmpf .olt main_v39 main_v40
  let main_c_15 : IVec S_ 1 := constantI S_ 1 1#1
  let main_v42 : IVec S_ 1 := (fun x v => Host.reduce IntOp.andi x v reducesTo_S150x50_S_d0_1 h_S_) main_v41 main_c_15
  let main_v43 : IVec S_ 1 := andi main_v38 main_v42
  let main_v44 : FVec F S50 .f32 := Host.absf main_arg11
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S14x50 .f32 := Host.absf main_arg12
  let main_cst_18 : FVec F S_ .f32 := constant S_ .f32 0x7F800000#32
  let main_v50 : FVec F S14x50 .f32 := broadcastInDim S14x50 ![] bcast_S_S14x50 main_cst_18
  fn_part3 (F := F) main_arg13 main_arg14 main_arg15 main_v48 main_v49 main_v50

def fn_part1 {F : FTy → Type} [FloatOps F] (main_arg6 : FVec F S14x50 .f32) (main_arg7 : FVec F S50 .f32) (main_arg8 : FVec F S100x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S14x50 .f32 := Host.absf main_arg6
  let main_cst_6 : FVec F S_ .f32 := constant S_ .f32 0x7F800000#32
  let main_v20 : FVec F S14x50 .f32 := broadcastInDim S14x50 ![] bcast_S_S14x50 main_cst_6
  let main_v21 : IVec S14x50 1 := cmpf .olt main_v19 main_v20
  let main_c_7 : IVec S_ 1 := constantI S_ 1 1#1
  let main_v22 : IVec S_ 1 := (fun x v => Host.reduce IntOp.andi x v reducesTo_S14x50_S_d0_1 h_S_) main_v21 main_c_7
  let main_v23 : IVec S_ 1 := andi main_v18 main_v22
  let main_v24 : FVec F S50 .f32 := Host.absf main_arg7
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S100x50 .f32 := Host.absf main_arg8
  let main_cst_10 : FVec F S_ .f32 := constant S_ .f32 0x7F800000#32
  let main_v30 : FVec F S100x50 .f32 := broadcastInDim S100x50 ![] bcast_S_S100x50 main_cst_10
  let main_v31 : IVec S100x50 1 := cmpf .olt main_v29 main_v30
  let main_c_11 : IVec S_ 1 := constantI S_ 1 1#1
  let main_v32 : IVec S_ 1 := (fun x v => Host.reduce IntOp.andi x v reducesTo_S100x50_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x75 .f32) (main_arg1 : FVec F S1000000x14 .f32) (main_arg2 : IVec S1000000 32) (main_arg3 : IVec S1000000x2 32) (main_arg4 : FVec F S75x50 .f32) (main_arg5 : FVec F S50 .f32) (main_arg6 : FVec F S14x50 .f32) (main_arg7 : FVec F S50 .f32) (main_arg8 : FVec F S100x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) : IVec S_ 1 :=
  let main_v0 : FVec F S50000x75 .f32 := Host.absf main_arg0
  let main_cst : FVec F S_ .f32 := constant S_ .f32 0x7F800000#32
  let main_v1 : FVec F S50000x75 .f32 := broadcastInDim S50000x75 ![] bcast_S_S50000x75 main_cst
  let main_v2 : IVec S50000x75 1 := cmpf .olt main_v0 main_v1
  let main_c : IVec S_ 1 := constantI S_ 1 1#1
  let main_v3 : IVec S_ 1 := (fun x v => Host.reduce IntOp.andi x v reducesTo_S50000x75_S_d0_1 h_S_) main_v2 main_c
  let main_v4 : FVec F S1000000x14 .f32 := Host.absf main_arg1
  let main_cst_0 : FVec F S_ .f32 := constant S_ .f32 0x7F800000#32
  let main_v5 : FVec F S1000000x14 .f32 := broadcastInDim S1000000x14 ![] bcast_S_S1000000x14 main_cst_0
  let main_v6 : IVec S1000000x14 1 := cmpf .olt main_v4 main_v5
  let main_c_1 : IVec S_ 1 := constantI S_ 1 1#1
  let main_v7 : IVec S_ 1 := (fun x v => Host.reduce IntOp.andi x v reducesTo_S1000000x14_S_d0_1 h_S_) main_v6 main_c_1
  let main_v8 : IVec S_ 1 := andi main_v3 main_v7
  let main_v9 : FVec F S75x50 .f32 := Host.absf main_arg4
  let main_cst_2 : FVec F S_ .f32 := constant S_ .f32 0x7F800000#32
  let main_v10 : FVec F S75x50 .f32 := broadcastInDim S75x50 ![] bcast_S_S75x50 main_cst_2
  let main_v11 : IVec S75x50 1 := cmpf .olt main_v9 main_v10
  let main_c_3 : IVec S_ 1 := constantI S_ 1 1#1
  let main_v12 : IVec S_ 1 := (fun x v => Host.reduce IntOp.andi x v reducesTo_S75x50_S_d0_1 h_S_) main_v11 main_c_3
  let main_v13 : IVec S_ 1 := andi main_v8 main_v12
  let main_v14 : FVec F S50 .f32 := Host.absf main_arg5
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x75 : Shape := ⟨2, ![50000, 75]⟩
abbrev S1000000x14 : Shape := ⟨2, ![1000000, 14]⟩
abbrev S1000000 : Shape := ⟨1, ![1000000]⟩
abbrev S1000000x2 : Shape := ⟨2, ![1000000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S1000000x1 : Shape := ⟨2, ![1000000, 1]⟩
abbrev S_ : Shape := ⟨0, ![]⟩
abbrev S1000000x75 : Shape := ⟨2, ![1000000, 75]⟩
abbrev S1x50 : Shape := ⟨2, ![1, 50]⟩
abbrev S1000000x50 : Shape := ⟨2, ![1000000, 50]⟩
abbrev S5000x14 : Shape := ⟨2, ![5000, 14]⟩
abbrev S5000x75 : Shape := ⟨2, ![5000, 75]⟩
abbrev S5000x50 : Shape := ⟨2, ![5000, 50]⟩
abbrev S5000x100 : Shape := ⟨2, ![5000, 100]⟩
abbrev S50000x50 : Shape := ⟨2, ![50000, 50]⟩
abbrev S10000x75 : Shape := ⟨2, ![10000, 75]⟩
abbrev S10000x50 : Shape := ⟨2, ![10000, 50]⟩
abbrev S10000x100 : Shape := ⟨2, ![10000, 100]⟩

abbrev nBuf : Space → Nat
  | .hbm => 53
  | .vmem => 29
  | .smem => 0
  | _ => 0

abbrev bufTy : (tb : Table) → Fin (tcTables nBuf tb) → BufTy
  | .hbm, ⟨0, _⟩ => ⟨S50000x75, .f32⟩
  | .hbm, ⟨1, _⟩ => ⟨S1000000x14, .f32⟩
  | .hbm, ⟨2, _⟩ => ⟨S1000000, .i32⟩
  | .hbm, ⟨3, _⟩ => ⟨S1000000x2, .i32⟩
  | .hbm, ⟨4, _⟩ => ⟨S75x50, .f32⟩
  | .hbm, ⟨5, _⟩ => ⟨S50, .f32⟩
  | .hbm, ⟨6, _⟩ => ⟨S14x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S1000000x1, .i32⟩
  | .hbm, ⟨17, _⟩ => ⟨S1000000, .i32⟩
  | .hbm, ⟨18, _⟩ => ⟨S1000000x1, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x75, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x75, .f32⟩
  | .hbm, ⟨38, _⟩ => ⟨S75x50, .f32⟩
  | .hbm, ⟨39, _⟩ => ⟨S75x50, .f32⟩
  | .hbm, ⟨40, _⟩ => ⟨S1x50, .f32⟩
  | .hbm, ⟨41, _⟩ => ⟨S1x50, .f32⟩
  | .hbm, ⟨42, _⟩ => ⟨S1x50, .f32⟩
  | .hbm, ⟨43, _⟩ => ⟨S1x50, .f32⟩
  | .hbm, ⟨44, _⟩ => ⟨S1x50, .f32⟩
  | .hbm, ⟨45, _⟩ => ⟨S1x50, .f32⟩
  | .hbm, ⟨46, _⟩ => ⟨S1000000x50, .f32⟩
  | .hbm, ⟨47, _⟩ => ⟨S1000000x50, .f32⟩
  | .hbm, ⟨48, _⟩ => ⟨S_, .f32⟩
  | .hbm, ⟨49, _⟩ => ⟨S50000x50, .f32⟩
  | .hbm, ⟨50, _⟩ => ⟨S1000000x1, .i32⟩
  | .hbm, ⟨51, _⟩ => ⟨S50000x50, .f32⟩
  | .hbm, ⟨52, _⟩ => ⟨S50000x50, .f32⟩
  | .local _ .vmem, ⟨0, _⟩ => ⟨S5000x14, .f32⟩
  | .local _ .vmem, ⟨1, _⟩ => ⟨S5000x14, .f32⟩
  | .local _ .vmem, ⟨2, _⟩ => ⟨S5000x75, .f32⟩
  | .local _ .vmem, ⟨3, _⟩ => ⟨S5000x75, .f32⟩
  | .local _ .vmem, ⟨4, _⟩ => ⟨S5000x75, .f32⟩
  | .local _ .vmem, ⟨5, _⟩ => ⟨S5000x75, .f32⟩
  | .local _ .vmem, ⟨6, _⟩ => ⟨S14x50, .f32⟩
  | .local _ .vmem, ⟨7, _⟩ => ⟨S1x50, .f32⟩
  | .local _ .vmem, ⟨8, _⟩ => ⟨S14x50, .f32⟩
  | .local _ .vmem, ⟨9, _⟩ => ⟨S1x50, .f32⟩
  | .local _ .vmem, ⟨10, _⟩ => ⟨S75x50, .f32⟩
  | .local _ .vmem, ⟨11, _⟩ => ⟨S75x50, .f32⟩
  | .local _ .vmem, ⟨12, _⟩ => ⟨S1x50, .f32⟩
  | .local _ .vmem, ⟨13, _⟩ => ⟨S100x50, .f32⟩
  | .local _ .vmem, ⟨14, _⟩ => ⟨S1x50, .f32⟩
  | .local _ .vmem, ⟨15, _⟩ => ⟨S5000x50, .f32⟩
  | .local _ .vmem, ⟨16, _⟩ => ⟨S5000x50, .f32⟩
  | .local _ .vmem, ⟨17, _⟩ => ⟨S5000x50, .f32⟩
  | .local _ .vmem, ⟨18, _⟩ => ⟨S5000x50, .f32⟩
  | .local _ .vmem, ⟨19, _⟩ => ⟨S10000x75, .f32⟩
  | .local _ .vmem, ⟨20, _⟩ => ⟨S10000x75, .f32⟩
  | .local _ .vmem, ⟨21, _⟩ => ⟨S10000x50, .f32⟩
  | .local _ .vmem, ⟨22, _⟩ => ⟨S10000x50, .f32⟩
  | .local _ .vmem, ⟨23, _⟩ => ⟨S75x50, .f32⟩
  | .local _ .vmem, ⟨24, _⟩ => ⟨S1x50, .f32⟩
  | .local _ .vmem, ⟨25, _⟩ => ⟨S100x50, .f32⟩
  | .local _ .vmem, ⟨26, _⟩ => ⟨S1x50, .f32⟩
  | .local _ .vmem, ⟨27, _⟩ => ⟨S10000x50, .f32⟩
  | .local _ .vmem, ⟨28, _⟩ => ⟨S10000x50, .f32⟩
  | _, _ => ⟨S50000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x75 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x75 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S14x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S14x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S75x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S75x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S5000x50 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5000x50 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x75 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S75x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x50 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S150x50_S75x50_0_0 : S150x50.Slices ![0, 0] S75x50
  slices_S150x50_S75x50_75_0 : S150x50.Slices ![75, 0] S75x50
  shapeCasts_S50_S1x50 : S50.ShapeCasts S1x50
  inb_S5000x14_S5000x14_0_0 : ∀ a, (![0, 0] : Fin 2 → Nat) a + S5000x14.size a ≤ S5000x14.size a
  h_S5000x14 : 0 < S5000x14.numel
  bitsLt_bf16_f32 : FTy.bits .bf16 < FTy.bits .f32
  inb_S5000x75_S5000x75_0_0 : ∀ a, (![0, 0] : Fin 2 → Nat) a + S5000x75.size a ≤ S5000x75.size a
  h_S5000x75 : 0 < S5000x75.numel
  shapeCasts_S5000x75_S5000x75 : S5000x75.ShapeCasts S5000x75
  inb_S14x50_S14x50_0_0 : ∀ a, (![0, 0] : Fin 2 → Nat) a + S14x50.size a ≤ S14x50.size a
  h_S14x50 : 0 < S14x50.numel
  inb_S75x50_S75x50_0_0 : ∀ a, (![0, 0] : Fin 2 → Nat) a + S75x50.size a ≤ S75x50.size a
  h_S75x50 : 0 < S75x50.numel
  shapeCasts_S75x50_S75x50 : S75x50.ShapeCasts S75x50
  inb_S100x50_S100x50_0_0 : ∀ a, (![0, 0] : Fin 2 → Nat) a + S100x50.size a ≤ S100x50.size a
  h_S100x50 : 0 < S100x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  concatenates_S5000x50_S5000x50_S5000x100_d1 : Shape.Concatenates [S5000x50, S5000x50] S5000x100 1
  inb_S5000x50_S5000x50_0_0 : ∀ a, (![0, 0] : Fin 2 → Nat) a + S5000x50.size a ≤ S5000x50.size a
  h_S5000x50 : 0 < S5000x50.numel
  bcast_S_S50000x50 : S_.BroadcastsInDim S50000x50 (![] : Fin 0 → Fin S50000x50.rank)
  inb_S10000x75_S10000x75_0_0 : ∀ a, (![0, 0] : Fin 2 → Nat) a + S10000x75.size a ≤ S10000x75.size a
  h_S10000x75 : 0 < S10000x75.numel
  inb_S10000x50_S10000x50_0_0 : ∀ a, (![0, 0] : Fin 2 → Nat) a + S10000x50.size a ≤ S10000x50.size a
  h_S10000x50 : 0 < S10000x50.numel
  shapeCasts_S10000x50_S10000x50 : S10000x50.ShapeCasts S10000x50
  broadcasts_S1x50_S10000x50 : S1x50.Broadcasts S10000x50
  concatenates_S10000x50_S10000x50_S10000x100_d1 : Shape.Concatenates [S10000x50, S10000x50] S10000x100 1
  gather_S50000x75_S1000000x1_S1000000x75_1_0_n_n_0_1_175_wf : GatherDims.WF S50000x75 S1000000x1 S1000000x75 [1] [0] [] [0] [] 1 ![1, 75]
  dot_S5000x75_S75x50_S5000x50_1_0_0_1_n_n_wf : DotDims.WF S5000x75 S75x50 S5000x50 [1] [0] [0] [1] [] []
  dot_S5000x14_S14x50_S5000x50_1_0_0_1_n_n_wf : DotDims.WF S5000x14 S14x50 S5000x50 [1] [0] [0] [1] [] []
  dot_S5000x100_S100x50_S5000x50_1_0_0_1_n_n_wf : DotDims.WF S5000x100 S100x50 S5000x50 [1] [0] [0] [1] [] []
  scatter_S50000x50_S1000000x1_S1000000x50_1_0_0_1_wf : ScatterDims.WF S50000x50 S1000000x1 S1000000x50 [1] [0] [0] 1
  dot_S10000x75_S75x50_S10000x50_1_0_0_1_n_n_wf : DotDims.WF S10000x75 S75x50 S10000x50 [1] [0] [0] [1] [] []
  dot_S10000x100_S100x50_S10000x50_1_0_0_1_n_n_wf : DotDims.WF S10000x100 S100x50 S10000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x14.size a ≤ S1000000x14.size a
  hwx0_0 : ∀ i : grid0.Coords, EltTy.bits .f32 = 32 ∨ (Rect.block (s := S1000000x14) S5000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x75.size a ≤ S1000000x75.size a
  hwx0_1 : ∀ i : grid0.Coords, EltTy.bits .f32 = 32 ∨ (Rect.block (s := S1000000x75) S5000x75.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x75.size a ≤ S1000000x75.size a
  hwx0_2 : ∀ i : grid0.Coords, EltTy.bits .f32 = 32 ∨ (Rect.block (s := S1000000x75) S5000x75.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x50.size a ≤ S14x50.size a
  hwx0_3 : ∀ i : grid0.Coords, EltTy.bits .f32 = 32 ∨ (Rect.block (s := S14x50) S14x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S14x50.size a ≤ S14x50.size a
  hwx0_5 : ∀ i : grid0.Coords, EltTy.bits .f32 = 32 ∨ (Rect.block (s := S14x50) S14x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S75x50.size a ≤ S75x50.size a
  hwx0_7 : ∀ i : grid0.Coords, EltTy.bits .f32 = 32 ∨ (Rect.block (s := S75x50) S75x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S75x50.size a ≤ S75x50.size a
  hwx0_8 : ∀ i : grid0.Coords, EltTy.bits .f32 = 32 ∨ (Rect.block (s := S75x50) S75x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x50.size a ≤ S1x50.size a
  hwx0_9 : ∀ i : grid0.Coords, EltTy.bits .f32 = 32 ∨ (Rect.block (s := S1x50) S1x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S100x50.size a ≤ S100x50.size a
  hwx0_10 : ∀ i : grid0.Coords, EltTy.bits .f32 = 32 ∨ (Rect.block (s := S100x50) S100x50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x50.size a ≤ S1x50.size a
  hwx0_11 : ∀ i : grid0.Coords, EltTy.bits .f32 = 32 ∨ (Rect.block (s := S1x50) S1x50.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x50.size a ≤ S1000000x50.size a
  hwx0_12 : ∀ i : grid0.Coords, EltTy.bits .f32 = 32 ∨ (Rect.block (s := S1000000x50) S5000x50.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x50.size a ≤ S1000000x50.size a
  hwx0_13 : ∀ i : grid0.Coords, EltTy.bits .f32 = 32 ∨ (Rect.block (s := S1000000x50) S5000x50.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x75.size a ≤ S50000x75.size a
  hwx1_0 : ∀ i : grid1.Coords, EltTy.bits .f32 = 32 ∨ (Rect.block (s := S50000x75) S10000x75.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x50.size a ≤ S50000x50.size a
  hwx1_1 : ∀ i : grid1.Coords, EltTy.bits .f32 = 32 ∨ (Rect.block (s := S50000x50) S10000x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S75x50.size a ≤ S75x50.size a
  hwx1_2 : ∀ i : grid1.Coords, EltTy.bits .f32 = 32 ∨ (Rect.block (s := S75x50) S75x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50.size a ≤ S1x50.size a
  hwx1_3 : ∀ i : grid1.Coords, EltTy.bits .f32 = 32 ∨ (Rect.block (s := S1x50) S1x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x50.size a ≤ S100x50.size a
  hwx1_4 : ∀ i : grid1.Coords, EltTy.bits .f32 = 32 ∨ (Rect.block (s := S100x50) S100x50.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x50.size a ≤ S1x50.size a
  hwx1_5 : ∀ i : grid1.Coords, EltTy.bits .f32 = 32 ∨ (Rect.block (s := S1x50) S1x50.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x50.size a ≤ S50000x50.size a
  hwx1_6 : ∀ i : grid1.Coords, EltTy.bits .f32 = 32 ∨ (Rect.block (s := S50000x50) S10000x50.size (cc1_transform_6 i) (hinb1_6 i)).WholeWords (EltTy.packing .f32)

variable [Facts₀]

def gather_S50000x75_S1000000x1_S1000000x75_1_0_n_n_0_1_175 : GatherDims S50000x75 S1000000x1 S1000000x75 where
  offsetDims := [1]
  collapsedSliceDims := [0]
  operandBatchingDims := []
  startIndicesBatchingDims := []
  startIndexMap := [0]
  indexVectorDim := 1
  sliceSizes := ![1, 75]
  wf := gather_S50000x75_S1000000x1_S1000000x75_1_0_n_n_0_1_175_wf
def dot_S5000x75_S75x50_S5000x50_1_0_0_1_n_n : DotDims S5000x75 S75x50 S5000x50 where
  lhsContracting := [1]
  rhsContracting := [0]
  lhsNonContracting := [0]
  rhsNonContracting := [1]
  lhsBatch := []
  rhsBatch := []
  wf := dot_S5000x75_S75x50_S5000x50_1_0_0_1_n_n_wf
def dot_S5000x14_S14x50_S5000x50_1_0_0_1_n_n : DotDims S5000x14 S14x50 S5000x50 where
  lhsContracting := [1]
  rhsContracting := [0]
  lhsNonContracting := [0]
  rhsNonContracting := [1]
  lhsBatch := []
  rhsBatch := []
  wf := dot_S5000x14_S14x50_S5000x50_1_0_0_1_n_n_wf
def dot_S5000x100_S100x50_S5000x50_1_0_0_1_n_n : DotDims S5000x100 S100x50 S5000x50 where
  lhsContracting := [1]
  rhsContracting := [0]
  lhsNonContracting := [0]
  rhsNonContracting := [1]
  lhsBatch := []
  rhsBatch := []
  wf := dot_S5000x100_S100x50_S5000x50_1_0_0_1_n_n_wf
def scatter_S50000x50_S1000000x1_S1000000x50_1_0_0_1 : ScatterDims S50000x50 S1000000x1 S1000000x50 where
  updateWindowDims := [1]
  insertedWindowDims := [0]
  scatterDimsToOperandDims := [0]
  indexVectorDim := 1
  wf := scatter_S50000x50_S1000000x1_S1000000x50_1_0_0_1_wf
def dot_S10000x75_S75x50_S10000x50_1_0_0_1_n_n : DotDims S10000x75 S75x50 S10000x50 where
  lhsContracting := [1]
  rhsContracting := [0]
  lhsNonContracting := [0]
  rhsNonContracting := [1]
  lhsBatch := []
  rhsBatch := []
  wf := dot_S10000x75_S75x50_S10000x50_1_0_0_1_n_n_wf
def dot_S10000x100_S100x50_S10000x50_1_0_0_1_n_n : DotDims S10000x100 S100x50 S10000x50 where
  lhsContracting := [1]
  rhsContracting := [0]
  lhsNonContracting := [0]
  rhsNonContracting := [1]
  lhsBatch := []
  rhsBatch := []
  wf := dot_S10000x100_S100x50_S10000x50_1_0_0_1_n_n_wf

abbrev win0_0 : Pipeline.Window sig grid0 :=
  Pipeline.Window.ofSpec (Memref.whole main_arg1) S5000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x75.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x75.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S14x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S14x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S75x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S75x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S100x50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S1x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26_0) S5000x50.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v26_1) S5000x50.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S10000x75.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S75x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S100x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S10000x50.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x75 : Shape := ⟨2, ![50000, 75]⟩
abbrev S1000000x14 : Shape := ⟨2, ![1000000, 14]⟩
abbrev S1000000 : Shape := ⟨1, ![1000000]⟩
abbrev S1000000x2 : Shape := ⟨2, ![1000000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S50000x50 : Shape := ⟨2, ![50000, 50]⟩
abbrev S1x50 : Shape := ⟨2, ![1, 50]⟩
abbrev S_ : Shape := ⟨0, ![]⟩
abbrev S1000000x50 : Shape := ⟨2, ![1000000, 50]⟩
abbrev S1000000x1 : Shape := ⟨2, ![1000000, 1]⟩
abbrev S50000x100 : Shape := ⟨2, ![50000, 100]⟩
abbrev S1000000x2x1 : Shape := ⟨3, ![1000000, 2, 1]⟩
abbrev S1000000x2x75 : Shape := ⟨3, ![1000000, 2, 75]⟩
abbrev S1000000x150 : Shape := ⟨2, ![1000000, 150]⟩
abbrev S1000000x100 : Shape := ⟨2, ![1000000, 100]⟩

abbrev nBuf : Space → Nat
  | .hbm => 84
  | .vmem => 0
  | .smem => 0
  | _ => 0

abbrev bufTy : (tb : Table) → Fin (tcTables nBuf tb) → BufTy
  | .hbm, ⟨0, _⟩ => ⟨S50000x75, .f32⟩
  | .hbm, ⟨1, _⟩ => ⟨S1000000x14, .f32⟩
  | .hbm, ⟨2, _⟩ => ⟨S1000000, .i32⟩
  | .hbm, ⟨3, _⟩ => ⟨S1000000x2, .i32⟩
  | .hbm, ⟨4, _⟩ => ⟨S75x50, .f32⟩
  | .hbm, ⟨5, _⟩ => ⟨S50, .f32⟩
  | .hbm, ⟨6, _⟩ => ⟨S14x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S50000x50, .f32⟩
  | .hbm, ⟨17, _⟩ => ⟨S1x50, .f32⟩
  | .hbm, ⟨18, _⟩ => ⟨S50000x50, .f32⟩
  | .hbm, ⟨19, _⟩ => ⟨S50000x50, .f32⟩
  | .hbm, ⟨20, _⟩ => ⟨S_, .f32⟩
  | .hbm, ⟨21, _⟩ => ⟨S50000x50, .f32⟩
  | .hbm, ⟨22, _⟩ => ⟨S50000x50, .f32⟩
  | .hbm, ⟨23, _⟩ => ⟨S1000000x50, .f32⟩
  | .hbm, ⟨24, _⟩ => ⟨S1x50, .f32⟩
  | .hbm, ⟨25, _⟩ => ⟨S1000000x50, .f32⟩
  | .hbm, ⟨26, _⟩ => ⟨S1000000x50, .f32⟩
  | .hbm, ⟨27, _⟩ => ⟨S_, .f32⟩
  | .hbm, ⟨28, _⟩ => ⟨S1000000x50, .f32⟩
  | .hbm, ⟨29, _⟩ => ⟨S1000000x50, .f32⟩
  | .hbm, ⟨30, _⟩ => ⟨S_, .f32⟩
  | .hbm, ⟨31, _⟩ => ⟨S50000x50, .f32⟩
  | .hbm, ⟨32, _⟩ => ⟨S1000000x1, .i32⟩
  | .hbm, ⟨33, _⟩ => ⟨S50000x50, .f32⟩
  | .hbm, ⟨34, _⟩ => ⟨S50000x100, .f32⟩
  | .hbm, ⟨35, _⟩ => ⟨S50000x50, .f32⟩
  | .hbm, ⟨36, _⟩ => ⟨S1x50, .f32⟩
  | .hbm, ⟨37, _⟩ => ⟨S50000x50, .f32⟩
  | .hbm, ⟨38, _⟩ => ⟨S50000x50, .f32⟩
  | .hbm, ⟨39, _⟩ => ⟨S_, .f32⟩
  | .hbm, ⟨40, _⟩ => ⟨S50000x50, .f32⟩
  | .hbm, ⟨41, _⟩ => ⟨S50000x50, .f32⟩
  | .hbm, ⟨42, _⟩ => ⟨S_, .i32⟩
  | .hbm, ⟨43, _⟩ => ⟨S1000000x2, .i32⟩
  | .hbm, ⟨44, _⟩ => ⟨S1000000x2, .i1⟩
  | .hbm, ⟨45, _⟩ => ⟨S_, .i32⟩
  | .hbm, ⟨46, _⟩ => ⟨S1000000x2, .i32⟩
  | .hbm, ⟨47, _⟩ => ⟨S1000000x2, .i32⟩
  | .hbm, ⟨48, _⟩ => ⟨S1000000x2, .i32⟩
  | .hbm, ⟨49, _⟩ => ⟨S1000000x2x1, .i32⟩
  | .hbm, ⟨50, _⟩ => ⟨S1000000x2x75, .f32⟩
  | .hbm, ⟨51, _⟩ => ⟨S1000000x150, .f32⟩
  | .hbm, ⟨52, _⟩ => ⟨S1000000x50, .f32⟩
  | .hbm, ⟨53, _⟩ => ⟨S1x50, .f32⟩
  | .hbm, ⟨54, _⟩ => ⟨S1000000x50, .f32⟩
  | .hbm, ⟨55, _⟩ => ⟨S1000000x50, .f32⟩
  | .hbm, ⟨56, _⟩ => ⟨S_, .f32⟩
  | .hbm, ⟨57, _⟩ => ⟨S1000000x50, .f32⟩
  | .hbm, ⟨58, _⟩ => ⟨S1000000x50, .f32⟩
  | .hbm, ⟨59, _⟩ => ⟨S1000000x2x75, .f32⟩
  | .hbm, ⟨60, _⟩ => ⟨S1000000x150, .f32⟩
  | .hbm, ⟨61, _⟩ => ⟨S1000000x50, .f32⟩
  | .hbm, ⟨62, _⟩ => ⟨S1x50, .f32⟩
  | .hbm, ⟨63, _⟩ => ⟨S1000000x50, .f32⟩
  | .hbm, ⟨64, _⟩ => ⟨S1000000x50, .f32⟩
  | .hbm, ⟨65, _⟩ => ⟨S_, .f32⟩
  | .hbm, ⟨66, _⟩ => ⟨S1000000x50, .f32⟩
  | .hbm, ⟨67, _⟩ => ⟨S1000000x50, .f32⟩
  | .hbm, ⟨68, _⟩ => ⟨S1000000x50, .f32⟩
  | .hbm, ⟨69, _⟩ => ⟨S1x50, .f32⟩
  | .hbm, ⟨70, _⟩ => ⟨S1000000x50, .f32⟩
  | .hbm, ⟨71, _⟩ => ⟨S1000000x50, .f32⟩
  | .hbm, ⟨72, _⟩ => ⟨S_, .f32⟩
  | .hbm, ⟨73, _⟩ => ⟨S1000000x50, .f32⟩
  | .hbm, ⟨74, _⟩ => ⟨S1000000x50, .f32⟩
  | .hbm, ⟨75, _⟩ => ⟨S1000000x50, .f32⟩
  | .hbm, ⟨76, _⟩ => ⟨S1000000x100, .f32⟩
  | .hbm, ⟨77, _⟩ => ⟨S1000000x50, .f32⟩
  | .hbm, ⟨78, _⟩ => ⟨S1x50, .f32⟩
  | .hbm, ⟨79, _⟩ => ⟨S1000000x50, .f32⟩
  | .hbm, ⟨80, _⟩ => ⟨S1000000x50, .f32⟩
  | .hbm, ⟨81, _⟩ => ⟨S_, .f32⟩
  | .hbm, ⟨82, _⟩ => ⟨S1000000x50, .f32⟩
  | .hbm, ⟨83, _⟩ => ⟨S1000000x50, .f32⟩
  | _, _ => ⟨S50000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_cst : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call4_cst : Ref sig .tc := ⟨.hbm, 65, rfl⟩
abbrev main_call4_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call5_cst : Ref sig .tc := ⟨.hbm, 72, rfl⟩
abbrev main_call5_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call6_cst : Ref sig .tc := ⟨.hbm, 81, rfl⟩
abbrev main_call6_v0 : Ref sig .tc := ⟨.hbm, 82, rfl⟩
abbrev main_v50 : Ref sig .tc := ⟨.hbm, 83, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S_S50000x50 : S_.BroadcastsInDim S50000x50 (![] : Fin 0 → Fin S50000x50.rank)
  bcast_S1x50_S1000000x50_0_1 : S1x50.BroadcastsInDim S1000000x50 (![0, 1] : Fin 2 → Fin S1000000x50.rank)
  bcast_S_S1000000x50 : S_.BroadcastsInDim S1000000x50 (![] : Fin 0 → Fin S1000000x50.rank)
  bcast_S1000000_S1000000x1_0 : S1000000.BroadcastsInDim S1000000x1 (![0] : Fin 1 → Fin S1000000x1.rank)
  concatenates_S50000x50_S50000x50_S50000x100_d1 : Shape.Concatenates [S50000x50, S50000x50] S50000x100 1
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x75_S1000000x150 : S1000000x2x75.ShapeCasts S1000000x150
  concatenates_S1000000x50_S1000000x50_S1000000x100_d1 : Shape.Concatenates [S1000000x50, S1000000x50] S1000000x100 1
  dot_S50000x75_S75x50_S50000x50_1_0_0_1_n_n_wf : DotDims.WF S50000x75 S75x50 S50000x50 [1] [0] [0] [1] [] []
  dot_S1000000x14_S14x50_S1000000x50_1_0_0_1_n_n_wf : DotDims.WF S1000000x14 S14x50 S1000000x50 [1] [0] [0] [1] [] []
  scatter_S50000x50_S1000000x1_S1000000x50_1_0_0_1_wf : ScatterDims.WF S50000x50 S1000000x1 S1000000x50 [1] [0] [0] 1
  dot_S50000x100_S100x50_S50000x50_1_0_0_1_n_n_wf : DotDims.WF S50000x100 S100x50 S50000x50 [1] [0] [0] [1] [] []
  gather_S50000x75_S1000000x2x1_S1000000x2x75_2_0_n_n_0_2_175_wf : GatherDims.WF S50000x75 S1000000x2x1 S1000000x2x75 [2] [0] [] [0] [] 2 ![1, 75]
  dot_S1000000x150_S150x50_S1000000x50_1_0_0_1_n_n_wf : DotDims.WF S1000000x150 S150x50 S1000000x50 [1] [0] [0] [1] [] []
  dot_S1000000x100_S100x50_S1000000x50_1_0_0_1_n_n_wf : DotDims.WF S1000000x100 S100x50 S1000000x50 [1] [0] [0] [1] [] []

variable [Facts₀]

def dot_S50000x75_S75x50_S50000x50_1_0_0_1_n_n : DotDims S50000x75 S75x50 S50000x50 where
  lhsContracting := [1]
  rhsContracting := [0]
  lhsNonContracting := [0]
  rhsNonContracting := [1]
  lhsBatch := []
  rhsBatch := []
  wf := dot_S50000x75_S75x50_S50000x50_1_0_0_1_n_n_wf
def dot_S1000000x14_S14x50_S1000000x50_1_0_0_1_n_n : DotDims S1000000x14 S14x50 S1000000x50 where
  lhsContracting := [1]
  rhsContracting := [0]
  lhsNonContracting := [0]
  rhsNonContracting := [1]
  lhsBatch := []
  rhsBatch := []
  wf := dot_S1000000x14_S14x50_S1000000x50_1_0_0_1_n_n_wf
def scatter_S50000x50_S1000000x1_S1000000x50_1_0_0_1 : ScatterDims S50000x50 S1000000x1 S1000000x50 where
  updateWindowDims := [1]
  insertedWindowDims := [0]
  scatterDimsToOperandDims := [0]
  indexVectorDim := 1
  wf := scatter_S50000x50_S1000000x1_S1000000x50_1_0_0_1_wf
def dot_S50000x100_S100x50_S50000x50_1_0_0_1_n_n : DotDims S50000x100 S100x50 S50000x50 where
  lhsContracting := [1]
  rhsContracting := [0]
  lhsNonContracting := [0]
  rhsNonContracting := [1]
  lhsBatch := []
  rhsBatch := []
  wf := dot_S50000x100_S100x50_S50000x50_1_0_0_1_n_n_wf
def gather_S50000x75_S1000000x2x1_S1000000x2x75_2_0_n_n_0_2_175 : GatherDims S50000x75 S1000000x2x1 S1000000x2x75 where
  offsetDims := [2]
  collapsedSliceDims := [0]
  operandBatchingDims := []
  startIndicesBatchingDims := []
  startIndexMap := [0]
  indexVectorDim := 2
  sliceSizes := ![1, 75]
  wf := gather_S50000x75_S1000000x2x1_S1000000x2x75_2_0_n_n_0_2_175_wf
def dot_S1000000x150_S150x50_S1000000x50_1_0_0_1_n_n : DotDims S1000000x150 S150x50 S1000000x50 where
  lhsContracting := [1]
  rhsContracting := [0]
  lhsNonContracting := [0]
  rhsNonContracting := [1]
  lhsBatch := []
  rhsBatch := []
  wf := dot_S1000000x150_S150x50_S1000000x50_1_0_0_1_n_n_wf
def dot_S1000000x100_S100x50_S1000000x50_1_0_0_1_n_n : DotDims S1000000x100 S100x50 S1000000x50 where
  lhsContracting := [1]
  rhsContracting := [0]
  lhsNonContracting := [0]
  rhsNonContracting := [1]
  lhsBatch := []
  rhsBatch := []
  wf := dot_S1000000x100_S100x50_S1000000x50_1_0_0_1_n_n_wf

class Facts : Prop extends Facts₀ where

variable [Facts]
-- ==== Proof.HostFold.lean ====
/-
  What the two kernel regions find in their operand arrays, and where the two results come from.

  The first region is entered after the host operations that prepare its operands: the two gathered feature
  tables (rows of the atom features at each column of the index pairs, a negative index moved up by the table's
  height first), the two halves of the atom-to-pair weights, the biases as one-row matrices; every other operand
  is an argument as launched. The second region is entered after the scatter-add of the first region's second
  output into a zero table; its other operands are arguments or one-row biases. The pair result is the first
  region's first output, untouched afterwards; the atom result is the second region's output.
-/
import proofs.«166549_j61830349193917_1_alg».proof.Proof.KernelRun
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- Column `s` of the index pairs as a vector, normalised: a negative entry moved up by 50000; as start indices. -/
abbrev startsOf (col : IVec S1000000 32) : IVec S1000000x1 32 :=
  broadcastInDim S1000000x1 ![0] bcast_S1000000_S1000000x1_0
    (select (cmpi .slt col (broadcastInDim S1000000 ![] bcast_S_S1000000 (constantI S_ 32 0#32)))
      (addi col (broadcastInDim S1000000 ![] bcast_S_S1000000 (constantI S_ 32 50000#32))) col)

/-! ## The first region's operands -/

theorem V1_arg1 (c : Dev nD) : V1 m ρ c main_arg1 = m ((c : Thread nD τ).loc main_arg1) := by
  show StableHlo.after hostOps0 (W0 m ρ c) (Proc.devRef .tc main_arg1) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg12 (c : Dev nD) : V1 m ρ c main_arg12 = m ((c : Thread nD τ).loc main_arg12) := by
  show StableHlo.after hostOps0 (W0 m ρ c) (Proc.devRef .tc main_arg12) = _
  after_results
theorem V1_arg14 (c : Dev nD) : V1 m ρ c main_arg14 = m ((c : Thread nD τ).loc main_arg14) := by
  show StableHlo.after hostOps0 (W0 m ρ c) (Proc.devRef .tc main_arg14) = _
  after_results

set_option maxHeartbeats 2000000 in
theorem V1_v10 (c : Dev nD) : V1 m ρ c main_v10
    = Host.gather gather_S50000x75_S1000000x1_S1000000x75_1_0_n_n_0_1_175 (m ((c : Thread nD τ).loc main_arg0))
        (startsOf (shapeCast S1000000 (extractStridedSlice S1000000x1 ![0, 0] (m ((c : Thread nD τ).loc main_arg3)) slices_S1000000x2_S1000000x1_0_0) shapeCasts_S1000000x1_S1000000)) := by
  show StableHlo.after hostOps0 (W0 m ρ c) (Proc.devRef .tc main_v10) = _
  after_results; rfl
set_option maxHeartbeats 2000000 in
theorem V1_v17 (c : Dev nD) : V1 m ρ c main_v17
    = Host.gather gather_S50000x75_S1000000x1_S1000000x75_1_0_n_n_0_1_175 (m ((c : Thread nD τ).loc main_arg0))
        (startsOf (shapeCast S1000000 (extractStridedSlice S1000000x1 ![0, 1] (m ((c : Thread nD τ).loc main_arg3)) slices_S1000000x2_S1000000x1_0_1) shapeCasts_S1000000x1_S1000000)) := by
  show StableHlo.after hostOps0 (W0 m ρ c) (Proc.devRef .tc main_v17) = _
  after_results; rfl

theorem V1_v18 (c : Dev nD) : V1 m ρ c main_v18
    = extractStridedSlice S75x50 ![0, 0] (m ((c : Thread nD τ).loc main_arg10)) slices_S150x50_S75x50_0_0 := by
  show StableHlo.after hostOps0 (W0 m ρ c) (Proc.devRef .tc main_v18) = _
  after_results
theorem V1_v19 (c : Dev nD) : V1 m ρ c main_v19
    = extractStridedSlice S75x50 ![75, 0] (m ((c : Thread nD τ).loc main_arg10)) slices_S150x50_S75x50_75_0 := by
  show StableHlo.after hostOps0 (W0 m ρ c) (Proc.devRef .tc main_v19) = _
  after_results

theorem V1_v21 (c : Dev nD) : V1 m ρ c main_v21 = shapeCast S1x50 (m ((c : Thread nD τ).loc main_arg7)) shapeCasts_S50_S1x50 := by
  show StableHlo.after hostOps0 (W0 m ρ c) (Proc.devRef .tc main_v21) = _
  after_results; rfl
theorem V1_v22 (c : Dev nD) : V1 m ρ c main_v22 = shapeCast S1x50 (m ((c : Thread nD τ).loc main_arg13)) shapeCasts_S50_S1x50 := by
  show StableHlo.after hostOps0 (W0 m ρ c) (Proc.devRef .tc main_v22) = _
  after_results; rfl
theorem V1_v23 (c : Dev nD) : V1 m ρ c main_v23 = shapeCast S1x50 (m ((c : Thread nD τ).loc main_arg11)) shapeCasts_S50_S1x50 := by
  show StableHlo.after hostOps0 (W0 m ρ c) (Proc.devRef .tc main_v23) = _
  after_results; rfl
theorem V1_v25 (c : Dev nD) : V1 m ρ c main_v25 = shapeCast S1x50 (m ((c : Thread nD τ).loc main_arg15)) shapeCasts_S50_S1x50 := by
  show StableHlo.after hostOps0 (W0 m ρ c) (Proc.devRef .tc main_v25) = _
  after_results; rfl

/-! ## Between the regions: what the first region and the host operations before it leave alone -/

/-- A buffer that is no array of the first region holds at the second region's entry what the host operations
    after the first region make of the first region's entry contents. -/
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_v20 (c : Dev nD) : W1 m ρ c (Proc.devRef .tc main_v20) = shapeCast S1x50 (m ((c : Thread nD τ).loc main_arg5)) shapeCasts_S50_S1x50 := by
  show StableHlo.after hostOps0 (W0 m ρ c) (Proc.devRef .tc main_v20) = _
  after_results; rfl
theorem W1_v24 (c : Dev nD) : W1 m ρ c (Proc.devRef .tc main_v24) = shapeCast S1x50 (m ((c : Thread nD τ).loc main_arg9)) shapeCasts_S50_S1x50 := by
  show StableHlo.after hostOps0 (W0 m ρ c) (Proc.devRef .tc main_v24) = _
  after_results; rfl

/-! ## The second region's operands -/

theorem V3_arg0 (c : Dev nD) : V3 m ρ c main_arg0 = m ((c : Thread nD τ).loc main_arg0) := by
  show StableHlo.after hostOps1 (W2 m ρ c) (Proc.devRef .tc main_arg0) = _
  after_results
  exact (W2_of_ne m ρ c main_arg0 (by decide)).trans (W1_arg0 m ρ c)
theorem V3_arg4 (c : Dev nD) : V3 m ρ c main_arg4 = m ((c : Thread nD τ).loc main_arg4) := by
  show StableHlo.after hostOps1 (W2 m ρ c) (Proc.devRef .tc main_arg4) = _
  after_results
  exact (W2_of_ne m ρ c main_arg4 (by decide)).trans (W1_arg4 m ρ c)
theorem V3_arg8 (c : Dev nD) : V3 m ρ c main_arg8 = m ((c : Thread nD τ).loc main_arg8) := by
  show StableHlo.after hostOps1 (W2 m ρ c) (Proc.devRef .tc main_arg8) = _
  after_results
  exact (W2_of_ne m ρ c main_arg8 (by decide)).trans (W1_arg8 m ρ c)
theorem V3_v20 (c : Dev nD) : V3 m ρ c main_v20 = shapeCast S1x50 (m ((c : Thread nD τ).loc main_arg5)) shapeCasts_S50_S1x50 := by
  show StableHlo.after hostOps1 (W2 m ρ c) (Proc.devRef .tc main_v20) = _
  after_results
  exact (W2_of_ne m ρ c main_v20 (by decide)).trans (W1_v20 m ρ c)
theorem V3_v24 (c : Dev nD) : V3 m ρ c main_v24 = shapeCast S1x50 (m ((c : Thread nD τ).loc main_arg9)) shapeCasts_S50_S1x50 := by
  show StableHlo.after hostOps1 (W2 m ρ c) (Proc.devRef .tc main_v24) = _
  after_results
  exact (W2_of_ne m ρ c main_v24 (by decide)).trans (W1_v24 m ρ c)

/-- The summed pair hiddens: the scatter-add, at the segment ids, of the first region's second output into zeros. -/
theorem V3_v29 (c : Dev nD) : V3 m ρ c main_v29
    = Host.scatterAdd scatter_S50000x50_S1000000x1_S1000000x50_1_0_0_1
        (broadcastInDim S50000x50 ![] bcast_S_S50000x50 (constant S_ .f32 0x00000000#32))
        (broadcastInDim S1000000x1 ![0] bcast_S1000000_S1000000x1_0 (m ((c : Thread nD τ).loc main_arg2)))
        ((dat0 (V1 m ρ) c).arrAt 13 cfg0.N) := by
  show StableHlo.after hostOps1 (W2 m ρ c) (Proc.devRef .tc main_v29) = _
  after_results
  rw [show W2 m ρ c (Proc.devRef .tc main_arg2) = m ((c : Thread nD τ).loc main_arg2) from
      (W2_of_ne m ρ c main_arg2 (by decide)).trans (W1_arg2 m ρ c),
    show W2 m ρ c (Proc.devRef .tc main_v26_1) = (dat0 (V1 m ρ) c).arrAt 13 cfg0.N from W2_arr m ρ c 13]

/-! ## The two results -/

theorem res_A (c : Dev nD) : W4 m ρ c (Proc.devRef .tc main_v30) = (dat1 (V3 m ρ) c).arrAt 6 cfg1.N := W4_arr m ρ c 6

theorem res_P (c : Dev nD) : W4 m ρ c (Proc.devRef .tc main_v26_0) = (dat0 (V1 m ρ) c).arrAt 12 cfg0.N :=
  calc W4 m ρ c (Proc.devRef .tc main_v26_0)
    _ = W3 m ρ c (Proc.devRef .tc main_v26_0) := W4_of_ne m ρ c main_v26_0 (by decide)
    _ = W2 m ρ c (Proc.devRef .tc main_v26_0) := by
          show StableHlo.after hostOps1 (W2 m ρ c) (Proc.devRef .tc main_v26_0) = _
          after_results
    _ = (dat0 (V1 m ρ) c).arrAt 12 cfg0.N := W2_arr m ρ c 12

end Cert.KernelIdeal.Fold

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  The two results as functions of the argument arrays, row by row, over the extended reals.

  Every stage is a dense layer on one row: `affRelu xr w b q = max (∑ k, xr k · w (k, q) + b q) 0`.
  * pair → atom hidden: `PA (r, ·) = affRelu (pair_features r) W_PA b_PA`;
  * atom → pair, both orders: with `f₀`, `f₁` the feature rows of the pair's two atoms,
    `AP_ij = max (f₀·W_AP[0:75] + f₁·W_AP[75:150] + b_AP) 0` and `AP_ji` the same with the atoms exchanged;
  * pair → pair: `PP (r, ·) = affRelu (pair_features r) W_PP b_PP`;
  * `P (r, ·) = affRelu ((AP_ij + AP_ji) ++ PP) W_P b_P`;
  * `A (a, ·) = affRelu (affRelu (atom_features a) W_AA b_AA ++ PA_sum a) W_A b_A`.
  The atom of a pair is the start index read signed, a negative one moved up by the table's height, then clamped
  into the table.
-/
import Idealize.ShloMosaic.PureOps.Ideal
import Idealize.ShloMosaic.Lib.ValueIdx
import proofs.«166549_j61830349193917_1_alg».proof.Proof.LibRowDims

noncomputable section

open scoped BigOperators

namespace Cert.Spec

open Idealize.ShloMosaic Idealize.ShloMosaic.ValueIdx

/-- An `n × k` array of extended reals. -/
abbrev Mat (n k : Nat) : Type := (⟨2, ![n, k]⟩ : Shape).Idx → EReal
/-- A length-`k` array of extended reals. -/
abbrev Vec1 (k : Nat) : Type := (⟨1, ![k]⟩ : Shape).Idx → EReal

/-- One output entry of a dense layer with the rectifier: `max (xr · w(·, q) + b q) 0`. -/
def affRelu {K N : Nat} (xr : Fin K → EReal) (w : Mat K N) (b : Fin N → EReal) (q : Fin N) : EReal :=
  max ((∑ k : Fin K, xr k * w (ix2 k q)) + b q) 0

/-- Two rows of length 50 laid side by side. -/
def cat50 (a b : Fin 50 → EReal) (k : Fin 100) : EReal :=
  if h : k.val < 50 then a ⟨k.val, h⟩ else b ⟨k.val - 50, by have := k.isLt; omega⟩

/-- One entry of the atom-to-pair layer for the ordered pair of feature rows `(f, g)`: the first row against the
    first weight block, the second against the second, the bias, the rectifier. -/
def apRow (f g : Fin 75 → EReal) (w0 w1 : Mat 75 50) (b : Fin 50 → EReal) (k : Fin 50) : EReal :=
  max (((∑ l : Fin 75, f l * w0 (ix2 l k)) + (∑ l : Fin 75, g l * w1 (ix2 l k))) + b k) 0

/-- One entry of the pair output from the pair's own feature row and its two atoms' feature rows. -/
def pairRow (pfr : Fin 14 → EReal) (f0 f1 : Fin 75 → EReal) (wpp : Mat 14 50) (bpp : Fin 50 → EReal)
    (w0 w1 : Mat 75 50) (bap : Fin 50 → EReal) (wp : Mat 100 50) (bp : Fin 50 → EReal) (q : Fin 50) : EReal :=
  affRelu (cat50 (fun k => apRow f0 f1 w0 w1 bap k + apRow f1 f0 w0 w1 bap k) (affRelu pfr wpp bpp)) wp bp q

/-- One entry of the atom output from the atom's feature row and its row of summed pair hiddens. -/
def atomRowOut (afr : Fin 75 → EReal) (psr : Fin 50 → EReal) (waa : Mat 75 50) (baa : Fin 50 → EReal)
    (wa : Mat 100 50) (ba : Fin 50 → EReal) (q : Fin 50) : EReal :=
  affRelu (cat50 (affRelu afr waa baa) psr) wa ba q

/-- A start index as the programs normalise it: a negative one (read signed) is moved up by 50000. -/
def normW (v : BitVec 32) : BitVec 32 :=
  Scalar.select (IntOp.cmpi .slt v 0#32) (IntOp.addi v 50000#32) v

/-- The atom (table row) that column `s` of pair `r`'s index row selects. -/
def atomOf (x3 : IVec ⟨2, ![1000000, 2]⟩ 32) (r : Fin 1000000) (s : Fin 2) : Fin 50000 :=
  RowDims.clampRow 50000 (by decide) (normW (x3 (ix2 r s)))

/-- The upper and the lower half of the rows of the atom-to-pair weights. -/
def rowsLo (w : Mat 150 50) : Mat 75 50 := fun i => w (ix2 (Fin.castAdd 75 (i 0)) (i 1))
def rowsHi (w : Mat 150 50) : Mat 75 50 := fun i => w (ix2 (Fin.natAdd 75 (i 0)) (i 1))

/-- The pair-to-atom hidden array. -/
def PAspec (x1 : Mat 1000000 14) (x6 : Mat 14 50) (x7 : Vec1 50) : Mat 1000000 50 :=
  fun i => affRelu (fun k => x1 (ix2 (i 0) k)) x6 (fun j => x7 (ix1 j)) (i 1)

/-- The pair output array. -/
def Pspec (x0 : Mat 50000 75) (x1 : Mat 1000000 14) (x3 : IVec ⟨2, ![1000000, 2]⟩ 32) (x10 : Mat 150 50) (x11 : Vec1 50)
    (x12 : Mat 14 50) (x13 : Vec1 50) (x14 : Mat 100 50) (x15 : Vec1 50) : Mat 1000000 50 :=
  fun i => pairRow (fun k => x1 (ix2 (i 0) k)) (fun l => x0 (ix2 (atomOf x3 (i 0) 0) l)) (fun l => x0 (ix2 (atomOf x3 (i 0) 1) l))
    x12 (fun j => x13 (ix1 j)) (rowsLo x10) (rowsHi x10) (fun j => x11 (ix1 j)) x14 (fun j => x15 (ix1 j)) (i 1)

/-- The atom output array, from the summed pair hiddens `ps`. -/
def Aspec (x0 : Mat 50000 75) (ps : Mat 50000 50) (x4 : Mat 75 50) (x5 : Vec1 50) (x8 : Mat 100 50) (x9 : Vec1 50) : Mat 50000 50 :=
  fun i => atomRowOut (fun l => x0 (ix2 (i 0) l)) (fun j => ps (ix2 (i 0) j)) x4 (fun j => x5 (ix1 j)) x8 (fun j => x9 (ix1 j)) (i 1)

end Cert.Spec

end
-- ==== Proof.Blocks0.lean ====
/-
  The first region, from blocks to arrays. Grid point `t` works on rows `5000·t … 5000·t + 4999` of the pair arrays:
  it reads those rows of the pair features and of the two gathered feature tables, the weights and one-row biases
  whole, and writes those rows of both outputs. Each output entry depends on its own row only, so the array the
  write-backs leave is one row-by-row function of the arrays the region found: every row of the million is in
  exactly the block of point `row / 5000`.
-/
import proofs.«166549_j61830349193917_1_alg».proof.Proof.Gen.KernelIdeal.Frame
import proofs.«166549_j61830349193917_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The pair kernel's body, entry by entry, is the row functions of the specification: the one fact about the body's
    arithmetic that the passage from blocks to arrays uses, taken here as a hypothesis. -/
def PairBodyFacts : Prop :=
  (∀ (x0 : Vec Ideal S5000x14 .f32) (x1 : Vec Ideal S5000x75 .f32) (x2 : Vec Ideal S5000x75 .f32) (x3 : Vec Ideal S14x50 .f32) (x4 : Vec Ideal S1x50 .f32) (x5 : Vec Ideal S14x50 .f32) (x6 : Vec Ideal S1x50 .f32) (x7 : Vec Ideal S75x50 .f32) (x8 : Vec Ideal S75x50 .f32) (x9 : Vec Ideal S1x50 .f32) (x10 : Vec Ideal S100x50 .f32) (x11 : Vec Ideal S1x50 .f32) (p : Fin 5000) (q : Fin 50),
    out0_12 (F := Ideal) x0 x1 x2 x3 x4 x5 x6 x7 x8 x9 x10 x11 (ix2 p q)
      = Cert.Spec.pairRow (fun k => x0 (ix2 p k)) (fun l => x1 (ix2 p l)) (fun l => x2 (ix2 p l)) x5 (fun j => x6 (ix2 0 j)) x7 x8 (fun j => x9 (ix2 0 j)) x10 (fun j => x11 (ix2 0 j)) q)
  ∧ (∀ (x0 : Vec Ideal S5000x14 .f32) (x1 : Vec Ideal S5000x75 .f32) (x2 : Vec Ideal S5000x75 .f32) (x3 : Vec Ideal S14x50 .f32) (x4 : Vec Ideal S1x50 .f32) (x5 : Vec Ideal S14x50 .f32) (x6 : Vec Ideal S1x50 .f32) (x7 : Vec Ideal S75x50 .f32) (x8 : Vec Ideal S75x50 .f32) (x9 : Vec Ideal S1x50 .f32) (x10 : Vec Ideal S100x50 .f32) (x11 : Vec Ideal S1x50 .f32) (p : Fin 5000) (q : Fin 50),
    out0_13 (F := Ideal) x0 x1 x2 x3 x4 x5 x6 x7 x8 x9 x10 x11 (ix2 p q)
      = Cert.Spec.affRelu (fun k => x0 (ix2 p k)) x3 (fun j => x4 (ix2 0 j)) q)

/-! ## The arrays the region finds, at their literal types -/

abbrev pfA (c : Dev nD) : Vec Ideal S1000000x14 .f32 := V c main_arg1
abbrev f0A (c : Dev nD) : Vec Ideal S1000000x75 .f32 := V c main_v10
abbrev f1A (c : Dev nD) : Vec Ideal S1000000x75 .f32 := V c main_v17
abbrev wpaA (c : Dev nD) : Vec Ideal S14x50 .f32 := V c main_arg6
abbrev bpaA (c : Dev nD) : Vec Ideal S1x50 .f32 := V c main_v21
abbrev wppA (c : Dev nD) : Vec Ideal S14x50 .f32 := V c main_arg12
abbrev bppA (c : Dev nD) : Vec Ideal S1x50 .f32 := V c main_v22
abbrev w0A (c : Dev nD) : Vec Ideal S75x50 .f32 := V c main_v18
abbrev w1A (c : Dev nD) : Vec Ideal S75x50 .f32 := V c main_v19
abbrev bapA (c : Dev nD) : Vec Ideal S1x50 .f32 := V c main_v23
abbrev wpA (c : Dev nD) : Vec Ideal S100x50 .f32 := V c main_arg14
abbrev bpA (c : Dev nD) : Vec Ideal S1x50 .f32 := V c main_v25

/-- One entry of the pair output from the arrays the region finds. -/
def pEntry (c : Dev nD) (r : Fin 1000000) (q : Fin 50) : EReal :=
  Cert.Spec.pairRow (fun k => pfA V c (ix2 r k)) (fun l => f0A V c (ix2 r l)) (fun l => f1A V c (ix2 r l))
    (wppA V c) (fun j => bppA V c (ix2 0 j)) (w0A V c) (w1A V c) (fun j => bapA V c (ix2 0 j)) (wpA V c) (fun j => bpA V c (ix2 0 j)) q

/-- One entry of the pair-to-atom hidden output from the arrays the region finds. -/
def paEntry (c : Dev nD) (r : Fin 1000000) (q : Fin 50) : EReal :=
  Cert.Spec.affRelu (fun k => pfA V c (ix2 r k)) (wpaA V c) (fun j => bpaA V c (ix2 0 j)) q

/-- The two output arrays as functions of the arrays the region finds. -/
def G12 (c : Dev nD) : Vec Ideal S1000000x50 .f32 := fun i => pEntry V c (i 0) (i 1)
def G13 (c : Dev nD) : Vec Ideal S1000000x50 .f32 := fun i => paEntry V c (i 0) (i 1)

/-! ## One block entry is the array function's entry, for blocks that are the arrays' rows -/

theorem pair_block_eq (hb : PairBodyFacts) (x0 : Vec Ideal S5000x14 .f32) (x1 : Vec Ideal S5000x75 .f32) (x2 : Vec Ideal S5000x75 .f32) (x3 : Vec Ideal S14x50 .f32) (x4 : Vec Ideal S1x50 .f32) (x5 : Vec Ideal S14x50 .f32) (x6 : Vec Ideal S1x50 .f32) (x7 : Vec Ideal S75x50 .f32) (x8 : Vec Ideal S75x50 .f32) (x9 : Vec Ideal S1x50 .f32) (x10 : Vec Ideal S100x50 .f32) (x11 : Vec Ideal S1x50 .f32)
    (A0 : Vec Ideal S1000000x14 .f32) (A1 : Vec Ideal S1000000x75 .f32) (A2 : Vec Ideal S1000000x75 .f32)
    (A5 : Vec Ideal S14x50 .f32) (A6 : Vec Ideal S1x50 .f32) (A7 : Vec Ideal S75x50 .f32) (A8 : Vec Ideal S75x50 .f32) (A9 : Vec Ideal S1x50 .f32) (A10 : Vec Ideal S100x50 .f32) (A11 : Vec Ideal S1x50 .f32)
    (p : Fin 5000) (q : Fin 50) (r : Fin 1000000)
    (h0 : ∀ k : Fin 14, x0 (ix2 p k) = A0 (ix2 r k)) (h1 : ∀ l : Fin 75, x1 (ix2 p l) = A1 (ix2 r l))
    (h2 : ∀ l : Fin 75, x2 (ix2 p l) = A2 (ix2 r l))
    (h5 : x5 = A5) (h6 : x6 = A6) (h7 : x7 = A7) (h8 : x8 = A8) (h9 : x9 = A9) (h10 : x10 = A10) (h11 : x11 = A11) :
    out0_12 (F := Ideal) x0 x1 x2 x3 x4 x5 x6 x7 x8 x9 x10 x11 (ix2 p q)
      = Cert.Spec.pairRow (fun k => A0 (ix2 r k)) (fun l => A1 (ix2 r l)) (fun l => A2 (ix2 r l))
          A5 (fun j => A6 (ix2 0 j)) A7 A8 (fun j => A9 (ix2 0 j)) A10 (fun j => A11 (ix2 0 j)) q := by
  subst h5 h6 h7 h8 h9 h10 h11
  rw [hb.1]
  simp only [h0, h1, h2]

theorem pa_block_eq (hb : PairBodyFacts) (x0 : Vec Ideal S5000x14 .f32) (x1 : Vec Ideal S5000x75 .f32) (x2 : Vec Ideal S5000x75 .f32) (x3 : Vec Ideal S14x50 .f32) (x4 : Vec Ideal S1x50 .f32) (x5 : Vec Ideal S14x50 .f32) (x6 : Vec Ideal S1x50 .f32) (x7 : Vec Ideal S75x50 .f32) (x8 : Vec Ideal S75x50 .f32) (x9 : Vec Ideal S1x50 .f32) (x10 : Vec Ideal S100x50 .f32) (x11 : Vec Ideal S1x50 .f32)
    (A0 : Vec Ideal S1000000x14 .f32) (A3 : Vec Ideal S14x50 .f32) (A4 : Vec Ideal S1x50 .f32)
    (p : Fin 5000) (q : Fin 50) (r : Fin 1000000)
    (h0 : ∀ k : Fin 14, x0 (ix2 p k) = A0 (ix2 r k)) (h3 : x3 = A3) (h4 : x4 = A4) :
    out0_13 (F := Ideal) x0 x1 x2 x3 x4 x5 x6 x7 x8 x9 x10 x11 (ix2 p q)
      = Cert.Spec.affRelu (fun k => A0 (ix2 r k)) A3 (fun j => A4 (ix2 0 j)) q := by
  subst h3 h4
  rw [hb.2]
  simp only [h0]

/-! ## The index maps, decided over the grid -/

/-- The three row-blocked inputs and the two outputs sit at block row `t`, block column 0; every other input is its
    whole array (block (0, 0)). -/
theorem idx_facts0 : ∀ t : Fin cfg0.N,
    win0_12.index t (0 : Fin 2) = t.val ∧ win0_12.index t (1 : Fin 2) = 0
    ∧ win0_13.index t (0 : Fin 2) = t.val ∧ win0_13.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The input blocks a point reads -/

/-- A whole-array input window's block is the array, at every point. -/
theorem whole3 (c : Dev nD) (t : Fin cfg0.N) : iblk0 V c 3 t = wpaA V c := by
  obtain ⟨-, -, -, -, -, -, -, -, -, -, e0, e1, -⟩ := idx_facts0 t
  funext y
  show V c main_arg6 (((cfg0.win 3).blk t).view.emb y) = V c main_arg6 y
  congr 1; funext a; apply Fin.ext
  match a with
  | ⟨0, _⟩ => show win0_3.index t (0 : Fin 2) * 14 + 1 * (y 0).val = (y 0).val; omega
  | ⟨1, _⟩ => show win0_3.index t (1 : Fin 2) * 50 + 1 * (y 1).val = (y 1).val; omega
theorem whole4 (c : Dev nD) (t : Fin cfg0.N) : iblk0 V c 4 t = bpaA V c := by
  obtain ⟨-, -, -, -, -, -, -, -, -, -, -, -, e0, e1, -⟩ := idx_facts0 t
  funext y
  show V c main_v21 (((cfg0.win 4).blk t).view.emb y) = V c main_v21 y
  congr 1; funext a; apply Fin.ext
  match a with
  | ⟨0, _⟩ => show win0_4.index t (0 : Fin 2) * 1 + 1 * (y 0).val = (y 0).val; omega
  | ⟨1, _⟩ => show win0_4.index t (1 : Fin 2) * 50 + 1 * (y 1).val = (y 1).val; omega
theorem whole5 (c : Dev nD) (t : Fin cfg0.N) : iblk0 V c 5 t = wppA V c := by
  obtain ⟨-, -, -, -, -, -, -, -, -, -, -, -, -, -, e0, e1, -⟩ := idx_facts0 t
  funext y
  show V c main_arg12 (((cfg0.win 5).blk t).view.emb y) = V c main_arg12 y
  congr 1; funext a; apply Fin.ext
  match a with
  | ⟨0, _⟩ => show win0_5.index t (0 : Fin 2) * 14 + 1 * (y 0).val = (y 0).val; omega
  | ⟨1, _⟩ => show win0_5.index t (1 : Fin 2) * 50 + 1 * (y 1).val = (y 1).val; omega
theorem whole6 (c : Dev nD) (t : Fin cfg0.N) : iblk0 V c 6 t = bppA V c := by
  obtain ⟨-, -, -, -, -, -, -, -, -, -, -, -, -, -, -, -, e0, e1, -⟩ := idx_facts0 t
  funext y
  show V c main_v22 (((cfg0.win 6).blk t).view.emb y) = V c main_v22 y
  congr 1; funext a; apply Fin.ext
  match a with
  | ⟨0, _⟩ => show win0_6.index t (0 : Fin 2) * 1 + 1 * (y 0).val = (y 0).val; omega
  | ⟨1, _⟩ => show win0_6.index t (1 : Fin 2) * 50 + 1 * (y 1).val = (y 1).val; omega
theorem whole7 (c : Dev nD) (t : Fin cfg0.N) : iblk0 V c 7 t = w0A V c := by
  obtain ⟨-, -, -, -, -, -, -, -, -, -, -, -, -, -, -, -, -, -, e0, e1, -⟩ := idx_facts0 t
  funext y
  show V c main_v18 (((cfg0.win 7).blk t).view.emb y) = V c main_v18 y
  congr 1; funext a; apply Fin.ext
  match a with
  | ⟨0, _⟩ => show win0_7.index t (0 : Fin 2) * 75 + 1 * (y 0).val = (y 0).val; omega
  | ⟨1, _⟩ => show win0_7.index t (1 : Fin 2) * 50 + 1 * (y 1).val = (y 1).val; omega
theorem whole8 (c : Dev nD) (t : Fin cfg0.N) : iblk0 V c 8 t = w1A V c := by
  obtain ⟨-, -, -, -, -, -, -, -, -, -, -, -, -, -, -, -, -, -, -, -, e0, e1, -⟩ := idx_facts0 t
  funext y
  show V c main_v19 (((cfg0.win 8).blk t).view.emb y) = V c main_v19 y
  congr 1; funext a; apply Fin.ext
  match a with
  | ⟨0, _⟩ => show win0_8.index t (0 : Fin 2) * 75 + 1 * (y 0).val = (y 0).val; omega
  | ⟨1, _⟩ => show win0_8.index t (1 : Fin 2) * 50 + 1 * (y 1).val = (y 1).val; omega
theorem whole9 (c : Dev nD) (t : Fin cfg0.N) : iblk0 V c 9 t = bapA V c := by
  obtain ⟨-, -, -, -, -, -, -, -, -, -, -, -, -, -, -, -, -, -, -, -, -, -, e0, e1, -⟩ := idx_facts0 t
  funext y
  show V c main_v23 (((cfg0.win 9).blk t).view.emb y) = V c main_v23 y
  congr 1; funext a; apply Fin.ext
  match a with
  | ⟨0, _⟩ => show win0_9.index t (0 : Fin 2) * 1 + 1 * (y 0).val = (y 0).val; omega
  | ⟨1, _⟩ => show win0_9.index t (1 : Fin 2) * 50 + 1 * (y 1).val = (y 1).val; omega
theorem whole10 (c : Dev nD) (t : Fin cfg0.N) : iblk0 V c 10 t = wpA V c := by
  obtain ⟨-, -, -, -, -, -, -, -, -, -, -, -, -, -, -, -, -, -, -, -, -, -, -, -, e0, e1, -⟩ := idx_facts0 t
  funext y
  show V c main_arg14 (((cfg0.win 10).blk t).view.emb y) = V c main_arg14 y
  congr 1; funext a; apply Fin.ext
  match a with
  | ⟨0, _⟩ => show win0_10.index t (0 : Fin 2) * 100 + 1 * (y 0).val = (y 0).val; omega
  | ⟨1, _⟩ => show win0_10.index t (1 : Fin 2) * 50 + 1 * (y 1).val = (y 1).val; omega
theorem whole11 (c : Dev nD) (t : Fin cfg0.N) : iblk0 V c 11 t = bpA V c := by
  obtain ⟨-, -, -, -, -, -, -, -, -, -, -, -, -, -, -, -, -, -, -, -, -, -, -, -, -, -, e0, e1⟩ := idx_facts0 t
  funext y
  show V c main_v25 (((cfg0.win 11).blk t).view.emb y) = V c main_v25 y
  congr 1; funext a; apply Fin.ext
  match a with
  | ⟨0, _⟩ => show win0_11.index t (0 : Fin 2) * 1 + 1 * (y 0).val = (y 0).val; omega
  | ⟨1, _⟩ => show win0_11.index t (1 : Fin 2) * 50 + 1 * (y 1).val = (y 1).val; omega

/-- A row-blocked input window's block at point `t` is rows `5000·t …` of its array. -/
theorem rows0 (c : Dev nD) (t : Fin cfg0.N) (p : Fin 5000) (k : Fin 14) (r : Fin 1000000) (hr : r.val = t.val * 5000 + p.val) :
    iblk0 V c 0 t (ix2 p k) = pfA V c (ix2 r k) := by
  obtain ⟨-, -, -, -, e0, e1, -⟩ := idx_facts0 t
  show V c main_arg1 (((cfg0.win 0).blk t).view.emb (ix2 p k)) = V c main_arg1 (ix2 r k)
  congr 1; funext a; apply Fin.ext
  match a with
  | ⟨0, _⟩ => show win0_0.index t (0 : Fin 2) * 5000 + 1 * p.val = r.val; omega
  | ⟨1, _⟩ => show win0_0.index t (1 : Fin 2) * 14 + 1 * k.val = k.val; omega
theorem rows1 (c : Dev nD) (t : Fin cfg0.N) (p : Fin 5000) (k : Fin 75) (r : Fin 1000000) (hr : r.val = t.val * 5000 + p.val) :
    iblk0 V c 1 t (ix2 p k) = f0A V c (ix2 r k) := by
  obtain ⟨-, -, -, -, -, -, e0, e1, -⟩ := idx_facts0 t
  show V c main_v10 (((cfg0.win 1).blk t).view.emb (ix2 p k)) = V c main_v10 (ix2 r k)
  congr 1; funext a; apply Fin.ext
  match a with
  | ⟨0, _⟩ => show win0_1.index t (0 : Fin 2) * 5000 + 1 * p.val = r.val; omega
  | ⟨1, _⟩ => show win0_1.index t (1 : Fin 2) * 75 + 1 * k.val = k.val; omega
theorem rows2 (c : Dev nD) (t : Fin cfg0.N) (p : Fin 5000) (k : Fin 75) (r : Fin 1000000) (hr : r.val = t.val * 5000 + p.val) :
    iblk0 V c 2 t (ix2 p k) = f1A V c (ix2 r k) := by
  obtain ⟨-, -, -, -, -, -, -, -, e0, e1, -⟩ := idx_facts0 t
  show V c main_v17 (((cfg0.win 2).blk t).view.emb (ix2 p k)) = V c main_v17 (ix2 r k)
  congr 1; funext a; apply Fin.ext
  match a with
  | ⟨0, _⟩ => show win0_2.index t (0 : Fin 2) * 5000 + 1 * p.val = r.val; omega
  | ⟨1, _⟩ => show win0_2.index t (1 : Fin 2) * 75 + 1 * k.val = k.val; omega

/-! ## What a point writes back -/

/-- The array row an entry of point `t`'s block sits in. -/
def rowOf (t : Fin cfg0.N) (p : Fin 5000) : Fin 1000000 :=
  ⟨t.val * 5000 + p.val, by have ht : t.val < 200 := (show t.val < grid0.N from t.isLt).trans_eq N_0
                            have := p.isLt; omega⟩

theorem emb12 (t : Fin cfg0.N) (p : Fin 5000) (q : Fin 50) :
    ((cfg0.win 12).blk t).view.emb (ix2 p q) = ix2 (rowOf t p) q := by
  obtain ⟨e0, e1, -⟩ := idx_facts0 t
  funext a; apply Fin.ext
  match a with
  | ⟨0, _⟩ => show win0_12.index t (0 : Fin 2) * 5000 + 1 * p.val = t.val * 5000 + p.val; omega
  | ⟨1, _⟩ => show win0_12.index t (1 : Fin 2) * 50 + 1 * q.val = q.val; omega

theorem emb13 (t : Fin cfg0.N) (p : Fin 5000) (q : Fin 50) :
    ((cfg0.win 13).blk t).view.emb (ix2 p q) = ix2 (rowOf t p) q := by
  obtain ⟨-, -, e0, e1, -⟩ := idx_facts0 t
  funext a; apply Fin.ext
  match a with
  | ⟨0, _⟩ => show win0_13.index t (0 : Fin 2) * 5000 + 1 * p.val = t.val * 5000 + p.val; omega
  | ⟨1, _⟩ => show win0_13.index t (1 : Fin 2) * 50 + 1 * q.val = q.val; omega

/-- WHAT POINT `t` WRITES BACK to the pair output is block `t` of `G12`. -/
theorem flushed12_eq (hb : PairBodyFacts) (c : Dev nD) (t : Fin cfg0.N) :
    (dat0 V c).flushed 12 t = ((cfg0.win 12).blk t).view.read (Elt Ideal) (G12 V c) := by
  show (cfg0.win 12).cut (grid0.coords t) ((dat0 V c).after 12 t) = _
  rw [after0_12]
  funext j
  obtain ⟨p, q, rfl⟩ : ∃ (p : Fin 5000) (q : Fin 50), j = ix2 p q := ⟨j 0, j 1, eq_ix2 j⟩
  show out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (ix2 p q)
    = G12 V c (((cfg0.win 12).blk t).view.emb (ix2 p q))
  refine Eq.trans ?_ (congrArg (G12 V c) (emb12 t p q)).symm
  show _ = pEntry V c (rowOf t p) q
  exact pair_block_eq hb _ _ _ _ _ _ _ _ _ _ _ _ (pfA V c) (f0A V c) (f1A V c) (wppA V c) (bppA V c) (w0A V c) (w1A V c) (bapA V c) (wpA V c) (bpA V c)
    p q (rowOf t p) (fun k => rows0 V c t p k _ rfl) (fun l => rows1 V c t p l _ rfl) (fun l => rows2 V c t p l _ rfl)
    (whole5 V c t) (whole6 V c t) (whole7 V c t) (whole8 V c t) (whole9 V c t) (whole10 V c t) (whole11 V c t)

/-- WHAT POINT `t` WRITES BACK to the hidden output is block `t` of `G13`. -/
theorem flushed13_eq (hb : PairBodyFacts) (c : Dev nD) (t : Fin cfg0.N) :
    (dat0 V c).flushed 13 t = ((cfg0.win 13).blk t).view.read (Elt Ideal) (G13 V c) := by
  show (cfg0.win 13).cut (grid0.coords t) ((dat0 V c).after 13 t) = _
  rw [after0_13]
  funext j
  obtain ⟨p, q, rfl⟩ : ∃ (p : Fin 5000) (q : Fin 50), j = ix2 p q := ⟨j 0, j 1, eq_ix2 j⟩
  show out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (ix2 p q)
    = G13 V c (((cfg0.win 13).blk t).view.emb (ix2 p q))
  refine Eq.trans ?_ (congrArg (G13 V c) (emb13 t p q)).symm
  show _ = paEntry V c (rowOf t p) q
  exact pa_block_eq hb _ _ _ _ _ _ _ _ _ _ _ _ (pfA V c) (wpaA V c) (bpaA V c)
    p q (rowOf t p) (fun k => rows0 V c t p k _ rfl) (whole3 V c t) (whole4 V c t)

/-! ## The blocks fill the arrays -/

/-- An index of the array is in point `t`'s block iff each coordinate is in the block's range on its axis. -/
theorem mem_blk12 (t : Fin cfg0.N) (i : S1000000x50.Idx) :
    i ∈ ((cfg0.win 12).blk t).view.set ↔ ∀ a : Fin 2, win0_12.index t a * S5000x50.size a ≤ (i a).val ∧ (i a).val < win0_12.index t a * S5000x50.size a + S5000x50.size a := by
  show i ∈ ((View.whole main_v26_0).slice (win0_12.rect t)).set ↔ _
  rw [View.set_slice_whole, Rect.mem_set_unit]
  exact Iff.rfl

theorem mem_blk13 (t : Fin cfg0.N) (i : S1000000x50.Idx) :
    i ∈ ((cfg0.win 13).blk t).view.set ↔ ∀ a : Fin 2, win0_13.index t a * S5000x50.size a ≤ (i a).val ∧ (i a).val < win0_13.index t a * S5000x50.size a + S5000x50.size a := by
  show i ∈ ((View.whole main_v26_1).slice (win0_13.rect t)).set ↔ _
  rw [View.set_slice_whole, Rect.mem_set_unit]
  exact Iff.rfl

/-- Row `r` is in the block of point `r / 5000`. -/
theorem cover12 (i : S1000000x50.Idx) : ∃ t : Fin cfg0.N, (cfg0.win 12).flush t = true ∧ i ∈ ((cfg0.win 12).blk t).view.set := by
  have hi0 : (i 0).val < 1000000 := (i 0).isLt
  have hi1 : (i 1).val < 50 := (i 1).isLt
  let t : Fin cfg0.N := ⟨(i 0).val / 5000, by show (i 0).val / 5000 < grid0.N; rw [N_0]; omega⟩
  obtain ⟨e0, e1, -⟩ := idx_facts0 t
  have ht : t.val = (i 0).val / 5000 := rfl
  refine ⟨t, flush0_12 t, ?_⟩
  rw [mem_blk12]
  intro a
  match a with
  | ⟨0, _⟩ => show win0_12.index t (0 : Fin 2) * 5000 ≤ (i 0).val ∧ (i 0).val < win0_12.index t (0 : Fin 2) * 5000 + 5000; omega
  | ⟨1, _⟩ => show win0_12.index t (1 : Fin 2) * 50 ≤ (i 1).val ∧ (i 1).val < win0_12.index t (1 : Fin 2) * 50 + 50; omega

theorem cover13 (i : S1000000x50.Idx) : ∃ t : Fin cfg0.N, (cfg0.win 13).flush t = true ∧ i ∈ ((cfg0.win 13).blk t).view.set := by
  have hi0 : (i 0).val < 1000000 := (i 0).isLt
  have hi1 : (i 1).val < 50 := (i 1).isLt
  let t : Fin cfg0.N := ⟨(i 0).val / 5000, by show (i 0).val / 5000 < grid0.N; rw [N_0]; omega⟩
  obtain ⟨-, -, e0, e1, -⟩ := idx_facts0 t
  have ht : t.val = (i 0).val / 5000 := rfl
  refine ⟨t, flush0_13 t, ?_⟩
  rw [mem_blk13]
  intro a
  match a with
  | ⟨0, _⟩ => show win0_13.index t (0 : Fin 2) * 5000 ≤ (i 0).val ∧ (i 0).val < win0_13.index t (0 : Fin 2) * 5000 + 5000; omega
  | ⟨1, _⟩ => show win0_13.index t (1 : Fin 2) * 50 ≤ (i 1).val ∧ (i 1).val < win0_13.index t (1 : Fin 2) * 50 + 50; omega

/-! ## The arrays after the region -/

theorem final12 (hb : PairBodyFacts) (c : Dev nD) : (dat0 V c).arrAt 12 cfg0.N = G12 V c :=
  (dat0 V c).arrAt_eq_of_cover 12 (G12 V c) (fun t _ => flushed12_eq V hb c t) cover12

theorem final13 (hb : PairBodyFacts) (c : Dev nD) : (dat0 V c).arrAt 13 cfg0.N = G13 V c :=
  (dat0 V c).arrAt_eq_of_cover 13 (G13 V c) (fun t _ => flushed13_eq V hb c t) cover13

end Cert.KernelIdeal.Blocks

end
-- ==== Proof.Blocks1.lean ====
/-
  The second region, from blocks to the array. Grid point `t` works on rows `10000·t … 10000·t + 9999` of the atom
  arrays: it reads those rows of the atom features and of the summed pair hiddens, the weights and one-row biases
  whole, and writes those rows of the output. Each output entry depends on its own row only, and every one of the
  50000 rows is in the block of point `row / 10000`.
-/
import proofs.«166549_j61830349193917_1_alg».proof.Proof.Gen.KernelIdeal.Frame
import proofs.«166549_j61830349193917_1_alg».proof.Proof.Spec
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The atom kernel's body, entry by entry, is the row function of the specification: the one fact about the body's
    arithmetic that the passage from blocks to the array uses, taken here as a hypothesis. -/
def AtomBodyFacts : Prop :=
  ∀ (x0 : Vec Ideal S10000x75 .f32) (x1 : Vec Ideal S10000x50 .f32) (x2 : Vec Ideal S75x50 .f32) (x3 : Vec Ideal S1x50 .f32) (x4 : Vec Ideal S100x50 .f32) (x5 : Vec Ideal S1x50 .f32) (p : Fin 10000) (q : Fin 50),
    out1_6 (F := Ideal) x0 x1 x2 x3 x4 x5 (ix2 p q)
      = Cert.Spec.atomRowOut (fun l => x0 (ix2 p l)) (fun j => x1 (ix2 p j)) x2 (fun j => x3 (ix2 0 j)) x4 (fun j => x5 (ix2 0 j)) q

/-! ## The arrays the region finds, at their literal types -/

abbrev afA (c : Dev nD) : Vec Ideal S50000x75 .f32 := V c main_arg0
abbrev psA (c : Dev nD) : Vec Ideal S50000x50 .f32 := V c main_v29
abbrev waaA (c : Dev nD) : Vec Ideal S75x50 .f32 := V c main_arg4
abbrev baaA (c : Dev nD) : Vec Ideal S1x50 .f32 := V c main_v20
abbrev waA (c : Dev nD) : Vec Ideal S100x50 .f32 := V c main_arg8
abbrev baA (c : Dev nD) : Vec Ideal S1x50 .f32 := V c main_v24

/-- One entry of the atom output from the arrays the region finds. -/
def aEntry (c : Dev nD) (r : Fin 50000) (q : Fin 50) : EReal :=
  Cert.Spec.atomRowOut (fun l => afA V c (ix2 r l)) (fun j => psA V c (ix2 r j)) (waaA V c) (fun j => baaA V c (ix2 0 j)) (waA V c) (fun j => baA V c (ix2 0 j)) q

/-- The output array as a function of the arrays the region finds. -/
def G6 (c : Dev nD) : Vec Ideal S50000x50 .f32 := fun i => aEntry V c (i 0) (i 1)

theorem atom_block_eq (hb : AtomBodyFacts) (x0 : Vec Ideal S10000x75 .f32) (x1 : Vec Ideal S10000x50 .f32) (x2 : Vec Ideal S75x50 .f32) (x3 : Vec Ideal S1x50 .f32) (x4 : Vec Ideal S100x50 .f32) (x5 : Vec Ideal S1x50 .f32)
    (A0 : Vec Ideal S50000x75 .f32) (A1 : Vec Ideal S50000x50 .f32) (A2 : Vec Ideal S75x50 .f32) (A3 : Vec Ideal S1x50 .f32) (A4 : Vec Ideal S100x50 .f32) (A5 : Vec Ideal S1x50 .f32)
    (p : Fin 10000) (q : Fin 50) (r : Fin 50000)
    (h0 : ∀ l : Fin 75, x0 (ix2 p l) = A0 (ix2 r l)) (h1 : ∀ j : Fin 50, x1 (ix2 p j) = A1 (ix2 r j))
    (h2 : x2 = A2) (h3 : x3 = A3) (h4 : x4 = A4) (h5 : x5 = A5) :
    out1_6 (F := Ideal) x0 x1 x2 x3 x4 x5 (ix2 p q)
      = Cert.Spec.atomRowOut (fun l => A0 (ix2 r l)) (fun j => A1 (ix2 r j)) A2 (fun j => A3 (ix2 0 j)) A4 (fun j => A5 (ix2 0 j)) q := by
  subst h2 h3 h4 h5
  rw [hb]
  simp only [h0, h1]

/-! ## The index maps, decided over the grid -/

theorem idx_facts1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## The input blocks a point reads -/

theorem whole1_2 (c : Dev nD) (t : Fin cfg1.N) : iblk1 V c 2 t = waaA V c := by
  obtain ⟨-, -, -, -, -, -, e0, e1, -⟩ := idx_facts1 t
  funext y
  show V c main_arg4 (((cfg1.win 2).blk t).view.emb y) = V c main_arg4 y
  congr 1; funext a; apply Fin.ext
  match a with
  | ⟨0, _⟩ => show win1_2.index t (0 : Fin 2) * 75 + 1 * (y 0).val = (y 0).val; omega
  | ⟨1, _⟩ => show win1_2.index t (1 : Fin 2) * 50 + 1 * (y 1).val = (y 1).val; omega
theorem whole1_3 (c : Dev nD) (t : Fin cfg1.N) : iblk1 V c 3 t = baaA V c := by
  obtain ⟨-, -, -, -, -, -, -, -, e0, e1, -⟩ := idx_facts1 t
  funext y
  show V c main_v20 (((cfg1.win 3).blk t).view.emb y) = V c main_v20 y
  congr 1; funext a; apply Fin.ext
  match a with
  | ⟨0, _⟩ => show win1_3.index t (0 : Fin 2) * 1 + 1 * (y 0).val = (y 0).val; omega
  | ⟨1, _⟩ => show win1_3.index t (1 : Fin 2) * 50 + 1 * (y 1).val = (y 1).val; omega
theorem whole1_4 (c : Dev nD) (t : Fin cfg1.N) : iblk1 V c 4 t = waA V c := by
  obtain ⟨-, -, -, -, -, -, -, -, -, -, e0, e1, -⟩ := idx_facts1 t
  funext y
  show V c main_arg8 (((cfg1.win 4).blk t).view.emb y) = V c main_arg8 y
  congr 1; funext a; apply Fin.ext
  match a with
  | ⟨0, _⟩ => show win1_4.index t (0 : Fin 2) * 100 + 1 * (y 0).val = (y 0).val; omega
  | ⟨1, _⟩ => show win1_4.index t (1 : Fin 2) * 50 + 1 * (y 1).val = (y 1).val; omega
theorem whole1_5 (c : Dev nD) (t : Fin cfg1.N) : iblk1 V c 5 t = baA V c := by
  obtain ⟨-, -, -, -, -, -, -, -, -, -, -, -, e0, e1⟩ := idx_facts1 t
  funext y
  show V c main_v24 (((cfg1.win 5).blk t).view.emb y) = V c main_v24 y
  congr 1; funext a; apply Fin.ext
  match a with
  | ⟨0, _⟩ => show win1_5.index t (0 : Fin 2) * 1 + 1 * (y 0).val = (y 0).val; omega
  | ⟨1, _⟩ => show win1_5.index t (1 : Fin 2) * 50 + 1 * (y 1).val = (y 1).val; omega

theorem rows1_0 (c : Dev nD) (t : Fin cfg1.N) (p : Fin 10000) (k : Fin 75) (r : Fin 50000) (hr : r.val = t.val * 10000 + p.val) :
    iblk1 V c 0 t (ix2 p k) = afA V c (ix2 r k) := by
  obtain ⟨-, -, e0, e1, -⟩ := idx_facts1 t
  show V c main_arg0 (((cfg1.win 0).blk t).view.emb (ix2 p k)) = V c main_arg0 (ix2 r k)
  congr 1; funext a; apply Fin.ext
  match a with
  | ⟨0, _⟩ => show win1_0.index t (0 : Fin 2) * 10000 + 1 * p.val = r.val; omega
  | ⟨1, _⟩ => show win1_0.index t (1 : Fin 2) * 75 + 1 * k.val = k.val; omega
theorem rows1_1 (c : Dev nD) (t : Fin cfg1.N) (p : Fin 10000) (k : Fin 50) (r : Fin 50000) (hr : r.val = t.val * 10000 + p.val) :
    iblk1 V c 1 t (ix2 p k) = psA V c (ix2 r k) := by
  obtain ⟨-, -, -, -, e0, e1, -⟩ := idx_facts1 t
  show V c main_v29 (((cfg1.win 1).blk t).view.emb (ix2 p k)) = V c main_v29 (ix2 r k)
  congr 1; funext a; apply Fin.ext
  match a with
  | ⟨0, _⟩ => show win1_1.index t (0 : Fin 2) * 10000 + 1 * p.val = r.val; omega
  | ⟨1, _⟩ => show win1_1.index t (1 : Fin 2) * 50 + 1 * k.val = k.val; omega

/-! ## What a point writes back -/

/-- The array row an entry of point `t`'s block sits in. -/
def rowOf (t : Fin cfg1.N) (p : Fin 10000) : Fin 50000 :=
  ⟨t.val * 10000 + p.val, by have ht : t.val < 5 := (show t.val < grid1.N from t.isLt).trans_eq N_1
                             have := p.isLt; omega⟩

theorem emb6 (t : Fin cfg1.N) (p : Fin 10000) (q : Fin 50) :
    ((cfg1.win 6).blk t).view.emb (ix2 p q) = ix2 (rowOf t p) q := by
  obtain ⟨e0, e1, -⟩ := idx_facts1 t
  funext a; apply Fin.ext
  match a with
  | ⟨0, _⟩ => show win1_6.index t (0 : Fin 2) * 10000 + 1 * p.val = t.val * 10000 + p.val; omega
  | ⟨1, _⟩ => show win1_6.index t (1 : Fin 2) * 50 + 1 * q.val = q.val; omega

/-- WHAT POINT `t` WRITES BACK is block `t` of `G6`. -/
theorem flushed6_eq (hb : AtomBodyFacts) (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  funext j
  obtain ⟨p, q, rfl⟩ : ∃ (p : Fin 10000) (q : Fin 50), j = ix2 p q := ⟨j 0, j 1, eq_ix2 j⟩
  show out1_6 (F := Ideal) (iblk1 V c 0 t) (iblk1 V c 1 t) (iblk1 V c 2 t) (iblk1 V c 3 t) (iblk1 V c 4 t) (iblk1 V c 5 t) (ix2 p q)
    = G6 V c (((cfg1.win 6).blk t).view.emb (ix2 p q))
  refine Eq.trans ?_ (congrArg (G6 V c) (emb6 t p q)).symm
  show _ = aEntry V c (rowOf t p) q
  exact atom_block_eq hb _ _ _ _ _ _ (afA V c) (psA V c) (waaA V c) (baaA V c) (waA V c) (baA V c)
    p q (rowOf t p) (fun l => rows1_0 V c t p l _ rfl) (fun j => rows1_1 V c t p j _ rfl)
    (whole1_2 V c t) (whole1_3 V c t) (whole1_4 V c t) (whole1_5 V c t)

/-! ## The blocks fill the array -/

theorem mem_blk6 (t : Fin cfg1.N) (i : S50000x50.Idx) :
    i ∈ ((cfg1.win 6).blk t).view.set ↔ ∀ a : Fin 2, win1_6.index t a * S10000x50.size a ≤ (i a).val ∧ (i a).val < win1_6.index t a * S10000x50.size a + S10000x50.size a := by
  show i ∈ ((View.whole main_v30).slice (win1_6.rect t)).set ↔ _
  rw [View.set_slice_whole, Rect.mem_set_unit]
  exact Iff.rfl

/-- Row `r` is in the block of point `r / 10000`. -/
theorem cover6 (i : S50000x50.Idx) : ∃ t : Fin cfg1.N, (cfg1.win 6).flush t = true ∧ i ∈ ((cfg1.win 6).blk t).view.set := by
  have hi0 : (i 0).val < 50000 := (i 0).isLt
  have hi1 : (i 1).val < 50 := (i 1).isLt
  let t : Fin cfg1.N := ⟨(i 0).val / 10000, by show (i 0).val / 10000 < grid1.N; rw [N_1]; omega⟩
  obtain ⟨e0, e1, -⟩ := idx_facts1 t
  have ht : t.val = (i 0).val / 10000 := rfl
  refine ⟨t, flush1_6 t, ?_⟩
  rw [mem_blk6]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 50 ≤ (i 1).val ∧ (i 1).val < win1_6.index t (1 : Fin 2) * 50 + 50; omega

/-! ## The array after the region -/

theorem final6 (hb : AtomBodyFacts) (c : Dev nD) : (dat1 V c).arrAt 6 cfg1.N = G6 V c :=
  (dat1 V c).arrAt_eq_of_cover 6 (G6 V c) (fun t _ => flushed6_eq V hb c t) cover6

end Cert.KernelIdeal.Blocks1

end
-- ==== Proof.LibColCat.lean ====
/-
  Two arrays of equal height laid side by side, read at an entry: a column left of the seam comes from the left
  array, a column at or past it from the right array at the column less the left array's width.
-/
import Idealize.ShloMosaic.Lib.Pipeline.Value
import Idealize.ShloMosaic.Lib.ValueIdx

noncomputable section

namespace Idealize.ShloMosaic.ColCat

open Idealize.ShloMosaic Idealize.ShloMosaic.ValueIdx

theorem concat_cols_apply {α : Type} {n A B C : Nat} (hC : C = A + B)
    (x₁ : (⟨2, ![n, A]⟩ : Shape).Idx → α) (x₂ : (⟨2, ![n, B]⟩ : Shape).Idx → α)
    (h : Shape.Concatenates [(⟨2, ![n, A]⟩ : Shape), ⟨2, ![n, B]⟩] ⟨2, ![n, C]⟩ 1) (p : Fin n) (k : Fin C) :
    concatenate ⟨2, ![n, C]⟩ 1 [⟨⟨2, ![n, A]⟩, x₁⟩, ⟨⟨2, ![n, B]⟩, x₂⟩] h (ix2 p k)
      = if hk : k.val < A then x₁ (ix2 p ⟨k.val, hk⟩) else x₂ (ix2 p ⟨k.val - A, by have := k.isLt; omega⟩) := by
  by_cases hk : k.val < A
  · rw [dif_pos hk]
    refine concatenate_pair_apply_left (1 : Fin 2) x₁ x₂ h (ix2 p k) rfl (ix2 p ⟨k.val, hk⟩) ?_
    intro b
    match b with
    | ⟨0, _⟩ => rfl
    | ⟨1, _⟩ => rfl
  · rw [dif_neg hk]
    refine concatenate_pair_apply_right (1 : Fin 2) x₁ x₂ h (ix2 p k) rfl rfl (ix2 p ⟨k.val - A, by have := k.isLt; omega⟩) ?_ ?_
    · intro b hb
      match b with
      | ⟨0, _⟩ => rfl
      | ⟨1, _⟩ => exact absurd rfl hb
    · show (k.val - A) + A = k.val
      omega

end Idealize.ShloMosaic.ColCat

end
-- ==== Proof.PairBody.lean ====
/-
  The pair kernel's body, entry by entry, over the extended reals.

  The body writes each of its two output blocks in one store of the whole block. Read at row `p`, column `q`:
  * the pair-to-atom hidden block is the dense layer with the rectifier on the pair's feature row,
    `max (∑ k, x (p, k) · W_PA (k, q) + b_PA q) 0`;
  * the pair output block is the dense layer with the rectifier on the row of length 100 that lays `AP_ij + AP_ji`
    beside `PP`, where `AP_ij = max (f₀·W₀ + f₁·W₁ + b_AP) 0` from the two atoms' feature rows `f₀`, `f₁` and the two
    halves `W₀`, `W₁` of the atom-to-pair weights, `AP_ji` is the same with the two rows exchanged, and `PP` is the
    dense layer with the rectifier on the pair's feature row.
  Over the extended reals narrowing to the shorter float format and a reshape to the same shape change nothing, a
  product into the zero accumulator is the contraction sum, a one-row bias broadcast down the rows reads its one row,
  and two blocks laid side by side are read left or right of the seam.
-/
import proofs.«166549_j61830349193917_1_alg».proof.Proof.Gen.KernelIdeal.Frame
import proofs.«166549_j61830349193917_1_alg».proof.Proof.Spec
import proofs.«166549_j61830349193917_1_alg».proof.Proof.LibRowDims
import proofs.«166549_j61830349193917_1_alg».proof.Proof.LibColCat
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelBody

open Cert.KernelIdeal Cert.KernelIdeal.Gen Idealize.ShloMosaic Idealize.ShloMosaic.ValueIdx

/-- The rectifier against the broadcast zero, at an entry. -/
theorem pair_relu_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- A product into the zero accumulator with a bias row added, at an entry: the row's contraction plus the bias. -/
theorem pair_affine_apply {n K : Nat} {φ₁ φ₂ : FTy} (x : FVec Ideal ⟨2, ![n, K]⟩ φ₁) (w : FVec Ideal ⟨2, ![K, 50]⟩ φ₂)
    (b : FVec Ideal ⟨2, ![1, 50]⟩ .f32) (hb : (⟨2, ![1, 50]⟩ : Shape).Broadcasts ⟨2, ![n, 50]⟩) (p : Fin n) (q : Fin 50) :
    addf (matmul (DotDims.plain n K 50) none x w (constant (F := Ideal) ⟨2, ![n, 50]⟩ .f32 0x00000000#32))
        (broadcastTo ⟨2, ![n, 50]⟩ b hb) (ix2 p q)
      = (∑ k : Fin K, x (ix2 p k) * w (ix2 k q)) + b (ix2 0 q) := by
  rw [addf_apply]
  refine congrArg₂ (· + ·) ?_ ?_
  · exact RowDims.matmul_plain_zero_apply none x w p q
  · exact broadcastTo_1b_ab_apply b hb p q

/-- A dense layer with the rectifier, at an entry. -/
theorem pair_dense_apply {n K : Nat} {φ₁ φ₂ : FTy} (x : FVec Ideal ⟨2, ![n, K]⟩ φ₁) (w : FVec Ideal ⟨2, ![K, 50]⟩ φ₂)
    (b : FVec Ideal ⟨2, ![1, 50]⟩ .f32) (hb : (⟨2, ![1, 50]⟩ : Shape).Broadcasts ⟨2, ![n, 50]⟩) (p : Fin n) (q : Fin 50) :
    maximumf (addf (matmul (DotDims.plain n K 50) none x w (constant (F := Ideal) ⟨2, ![n, 50]⟩ .f32 0x00000000#32))
        (broadcastTo ⟨2, ![n, 50]⟩ b hb)) (broadcast ⟨2, ![n, 50]⟩ (Scalar.ofBits (F := Ideal) .f32 0x00000000#32)) (ix2 p q)
      = Cert.Spec.affRelu (fun k => x (ix2 p k)) w (fun j => b (ix2 0 j)) q := by
  rw [pair_relu_apply, pair_affine_apply]
  rfl

/-- Two products into zero accumulators added, a bias row added, at an entry: the two contractions plus the bias. -/
theorem pair_twoProd_apply {n K : Nat} {φ₁ φ₂ : FTy} (f g : FVec Ideal ⟨2, ![n, K]⟩ φ₁) (w0 w1 : FVec Ideal ⟨2, ![K, 50]⟩ φ₂)
    (b : FVec Ideal ⟨2, ![1, 50]⟩ .f32) (hb : (⟨2, ![1, 50]⟩ : Shape).Broadcasts ⟨2, ![n, 50]⟩) (p : Fin n) (k : Fin 50) :
    addf (addf (matmul (DotDims.plain n K 50) none f w0 (constant (F := Ideal) ⟨2, ![n, 50]⟩ .f32 0x00000000#32))
          (matmul (DotDims.plain n K 50) none g w1 (constant (F := Ideal) ⟨2, ![n, 50]⟩ .f32 0x00000000#32)))
        (broadcastTo ⟨2, ![n, 50]⟩ b hb) (ix2 p k)
      = ((∑ l : Fin K, f (ix2 p l) * w0 (ix2 l k)) + (∑ l : Fin K, g (ix2 p l) * w1 (ix2 l k))) + b (ix2 0 k) := by
  rw [addf_apply, addf_apply]
  refine congrArg₂ (· + ·) (congrArg₂ (· + ·) ?_ ?_) ?_
  · exact RowDims.matmul_plain_zero_apply none f w0 p k
  · exact RowDims.matmul_plain_zero_apply none g w1 p k
  · exact broadcastTo_1b_ab_apply b hb p k

/-- The atom-to-pair sum before the rectifier, at an entry: the first atom's row against the first weight block, the
    second atom's against the second, the bias. -/
theorem pair_apSum_apply (v2 v5 : Vec Ideal S5000x75 .f32) (v12 v15 : Vec Ideal S75x50 .f32) (v24 : Vec Ideal S1x50 .f32)
    (p : Fin 5000) (k : Fin 50) :
    k0_pay15 (F := Ideal) v2 v5 v12 v15 v24 (ix2 p k)
      = ((∑ l : Fin 75, v2 (ix2 p l) * v12 (ix2 l k)) + (∑ l : Fin 75, v5 (ix2 p l) * v15 (ix2 l k))) + v24 (ix2 0 k) := by
  have e4 : k0_pay4 (F := Ideal) v2 = v2 := shapeCast_self v2 _
  have e5 : k0_pay5 (F := Ideal) v5 = v5 := shapeCast_self v5 _
  have e8 : k0_pay8 (F := Ideal) v12 = v12 := shapeCast_self v12 _
  have e9 : k0_pay9 (F := Ideal) v15 = v15 := shapeCast_self v15 _
  have e13 : k0_pay13 (F := Ideal) v24 = v24 := shapeCast_self v24 _
  refine (pair_twoProd_apply (n := 5000) (K := 75) (k0_pay4 v2) (k0_pay5 v5) (k0_pay8 v12) (k0_pay9 v15) (k0_pay13 v24)
    broadcasts_S1x50_S5000x50 p k).trans ?_
  rw [e4, e5, e8, e9, e13]

/-- The pair output's payload at an entry, over its operands as the body holds them: the dense layer on the row that
    lays the sum of the two rectified atom-to-pair rows beside the rectified pair-to-pair row. -/
theorem pair_out_apply (v1 : FVec Ideal S5000x14 .bf16) (v4 v7 : FVec Ideal S5000x75 .bf16) (v11 : FVec Ideal S14x50 .bf16)
    (v14 v17 : FVec Ideal S75x50 .bf16) (v19 : FVec Ideal S100x50 .bf16) (v23 v25 v27 : FVec Ideal S1x50 .f32)
    (v32 : FVec Ideal S5000x50 .f32) (p : Fin 5000) (q : Fin 50) :
    k0_pay1 (F := Ideal) v1 v4 v7 v11 v14 v17 v19 v23 v25 v27 v32 (ix2 p q)
      = Cert.Spec.affRelu
          (Cert.Spec.cat50
            (fun k => max (v32 (ix2 p k)) 0
              + max (((∑ l : Fin 75, v7 (ix2 p l) * v14 (ix2 l k)) + (∑ l : Fin 75, v4 (ix2 p l) * v17 (ix2 l k)))
                  + v25 (ix2 0 k)) 0)
            (Cert.Spec.affRelu (fun l => v1 (ix2 p l)) v11 (fun j => v23 (ix2 0 j))))
          v19 (fun j => v27 (ix2 0 j)) q := by
  -- the last dense layer, on the concatenated row
  refine (pair_dense_apply (n := 5000) (K := 100) _ v19 v27 broadcasts_S1x50_S5000x50 p q).trans ?_
  refine congrArg (fun r => Cert.Spec.affRelu r v19 (fun j => v27 (ix2 0 j)) q) (funext fun c => ?_)
  -- the concatenated row at a column: left of the seam the summed atom-to-pair rows, right of it the pair-to-pair row
  refine (ColCat.concat_cols_apply (n := 5000) (A := 50) (B := 50) (C := 100) rfl _ _
    concatenates_S5000x50_S5000x50_S5000x100_d1 p c).trans ?_
  unfold Cert.Spec.cat50
  by_cases hk : c.val < 50
  · rw [dif_pos hk, dif_pos hk]
    refine congrArg₂ (· + ·) (pair_relu_apply v32 _) ?_
    refine (pair_relu_apply _ _).trans (congrArg (fun t => max t 0) ?_)
    exact pair_twoProd_apply (n := 5000) (K := 75) v7 v4 v14 v17 v25 broadcasts_S1x50_S5000x50 p ⟨c.val, hk⟩
  · rw [dif_neg hk, dif_neg hk]
    exact pair_dense_apply (n := 5000) (K := 14) v1 v11 v23 broadcasts_S1x50_S5000x50 p _

/-- The offsets of a whole-buffer access are all zero. -/
theorem pair_offsets_zero : (![0, 0] : Fin 2 → Nat) = fun _ => 0 := by
  funext a
  match a with
  | ⟨0, _⟩ => rfl
  | ⟨1, _⟩ => rfl

/-- What the pair kernel's body leaves in the pair output's buffer, at an entry: the pair row of the specification,
    from the pair's feature row and its two atoms' feature rows. -/
theorem out0_12_apply (x0 : Vec Ideal S5000x14 .f32) (x1 : Vec Ideal S5000x75 .f32) (x2 : Vec Ideal S5000x75 .f32)
    (x3 : Vec Ideal S14x50 .f32) (x4 : Vec Ideal S1x50 .f32) (x5 : Vec Ideal S14x50 .f32) (x6 : Vec Ideal S1x50 .f32)
    (x7 : Vec Ideal S75x50 .f32) (x8 : Vec Ideal S75x50 .f32) (x9 : Vec Ideal S1x50 .f32) (x10 : Vec Ideal S100x50 .f32)
    (x11 : Vec Ideal S1x50 .f32) (p : Fin 5000) (q : Fin 50) :
    out0_12 (F := Ideal) x0 x1 x2 x3 x4 x5 x6 x7 x8 x9 x10 x11 (ix2 p q)
      = Cert.Spec.pairRow (fun k => x0 (ix2 p k)) (fun l => x1 (ix2 p l)) (fun l => x2 (ix2 p l)) x5 (fun j => x6 (ix2 0 j))
          x7 x8 (fun j => x9 (ix2 0 j)) x10 (fun j => x11 (ix2 0 j)) q := by
  unfold out0_12
  rw [View.canon_unit_zero pair_offsets_zero]
  simp only [View.ld_unit_zero (S := S5000x14) pair_offsets_zero, View.ld_unit_zero (S := S5000x75) pair_offsets_zero,
    View.ld_unit_zero (S := S14x50) pair_offsets_zero, View.ld_unit_zero (S := S75x50) pair_offsets_zero,
    View.ld_unit_zero (S := S100x50) pair_offsets_zero, View.ld_unit_zero (S := S1x50) pair_offsets_zero]
  -- the operands as the body holds them: each is the block it was read from
  have e3 : k0_pay3 (F := Ideal) x0 = x0 := rfl
  have e4 : k0_pay4 (F := Ideal) x1 = x1 := shapeCast_self x1 _
  have e5 : k0_pay5 (F := Ideal) x2 = x2 := shapeCast_self x2 _
  have e7 : k0_pay7 (F := Ideal) x5 = x5 := rfl
  have e8 : k0_pay8 (F := Ideal) x7 = x7 := shapeCast_self x7 _
  have e9 : k0_pay9 (F := Ideal) x8 = x8 := shapeCast_self x8 _
  have e10 : k0_pay10 (F := Ideal) x10 = x10 := rfl
  have e12 : k0_pay12 (F := Ideal) x6 = x6 := shapeCast_self x6 _
  have e13 : k0_pay13 (F := Ideal) x9 = x9 := shapeCast_self x9 _
  have e14 : k0_pay14 (F := Ideal) x11 = x11 := shapeCast_self x11 _
  rw [pair_out_apply, e3, e4, e5, e7, e8, e9, e10, e12, e13, e14]
  unfold Cert.Spec.pairRow Cert.Spec.apRow
  refine congrArg (fun r => Cert.Spec.affRelu (Cert.Spec.cat50 r (Cert.Spec.affRelu (fun k => x0 (ix2 p k)) x5 (fun j => x6 (ix2 0 j))))
    x10 (fun j => x11 (ix2 0 j)) q) (funext fun k => ?_)
  rw [pair_apSum_apply]

/-- What the pair kernel's body leaves in the pair-to-atom hidden buffer, at an entry: the dense layer with the
    rectifier on the pair's feature row. -/
theorem out0_13_apply (x0 : Vec Ideal S5000x14 .f32) (x1 : Vec Ideal S5000x75 .f32) (x2 : Vec Ideal S5000x75 .f32)
    (x3 : Vec Ideal S14x50 .f32) (x4 : Vec Ideal S1x50 .f32) (x5 : Vec Ideal S14x50 .f32) (x6 : Vec Ideal S1x50 .f32)
    (x7 : Vec Ideal S75x50 .f32) (x8 : Vec Ideal S75x50 .f32) (x9 : Vec Ideal S1x50 .f32) (x10 : Vec Ideal S100x50 .f32)
    (x11 : Vec Ideal S1x50 .f32) (p : Fin 5000) (q : Fin 50) :
    out0_13 (F := Ideal) x0 x1 x2 x3 x4 x5 x6 x7 x8 x9 x10 x11 (ix2 p q)
      = Cert.Spec.affRelu (fun k => x0 (ix2 p k)) x3 (fun j => x4 (ix2 0 j)) q := by
  unfold out0_13
  rw [View.canon_unit_zero pair_offsets_zero]
  simp only [View.ld_unit_zero (S := S5000x14) pair_offsets_zero, View.ld_unit_zero (S := S14x50) pair_offsets_zero,
    View.ld_unit_zero (S := S1x50) pair_offsets_zero]
  have e3 : k0_pay3 (F := Ideal) x0 = x0 := rfl
  have e6 : k0_pay6 (F := Ideal) x3 = x3 := rfl
  have e11 : k0_pay11 (F := Ideal) x4 = x4 := shapeCast_self x4 _
  rw [e3, e6, e11]
  exact pair_dense_apply (n := 5000) (K := 14) x0 x3 x4 broadcasts_S1x50_S5000x50 p q

end Cert.KernelBody

end
-- ==== Proof.AtomBody.lean ====
/-
  The atom kernel's body, entry by entry, over the extended reals.

  The body writes its output block in one store of the whole block. Read at row `p`, column `q`, it is the dense
  layer with the rectifier on the row of length 100 that lays `AA` beside the atom's row of summed pair hiddens, where
  `AA = max (∑ l, x (p, l) · W_AA (l, ·) + b_AA) 0` is the dense layer with the rectifier on the atom's feature row.
  Over the extended reals narrowing to the shorter float format and a reshape to the same shape change nothing, a
  product into the zero accumulator is the contraction sum, a one-row bias broadcast down the rows reads its one row,
  and two blocks laid side by side are read left or right of the seam.
-/
import proofs.«166549_j61830349193917_1_alg».proof.Proof.Gen.KernelIdeal.Frame
import proofs.«166549_j61830349193917_1_alg».proof.Proof.Spec
import proofs.«166549_j61830349193917_1_alg».proof.Proof.LibRowDims
import proofs.«166549_j61830349193917_1_alg».proof.Proof.LibColCat
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelBody

open Cert.KernelIdeal Cert.KernelIdeal.Gen Idealize.ShloMosaic Idealize.ShloMosaic.ValueIdx

/-- The rectifier against the broadcast zero, at an entry. -/
theorem atom_relu_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- A product into the zero accumulator with a bias row added, at an entry: the row's contraction plus the bias. -/
theorem atom_affine_apply {n K : Nat} {φ₁ φ₂ : FTy} (x : FVec Ideal ⟨2, ![n, K]⟩ φ₁) (w : FVec Ideal ⟨2, ![K, 50]⟩ φ₂)
    (b : FVec Ideal ⟨2, ![1, 50]⟩ .f32) (hb : (⟨2, ![1, 50]⟩ : Shape).Broadcasts ⟨2, ![n, 50]⟩) (p : Fin n) (q : Fin 50) :
    addf (matmul (DotDims.plain n K 50) none x w (constant (F := Ideal) ⟨2, ![n, 50]⟩ .f32 0x00000000#32))
        (broadcastTo ⟨2, ![n, 50]⟩ b hb) (ix2 p q)
      = (∑ k : Fin K, x (ix2 p k) * w (ix2 k q)) + b (ix2 0 q) := by
  rw [addf_apply]
  refine congrArg₂ (· + ·) ?_ ?_
  · exact RowDims.matmul_plain_zero_apply none x w p q
  · exact broadcastTo_1b_ab_apply b hb p q

/-- A dense layer with the rectifier, at an entry. -/
theorem atom_dense_apply {n K : Nat} {φ₁ φ₂ : FTy} (x : FVec Ideal ⟨2, ![n, K]⟩ φ₁) (w : FVec Ideal ⟨2, ![K, 50]⟩ φ₂)
    (b : FVec Ideal ⟨2, ![1, 50]⟩ .f32) (hb : (⟨2, ![1, 50]⟩ : Shape).Broadcasts ⟨2, ![n, 50]⟩) (p : Fin n) (q : Fin 50) :
    maximumf (addf (matmul (DotDims.plain n K 50) none x w (constant (F := Ideal) ⟨2, ![n, 50]⟩ .f32 0x00000000#32))
        (broadcastTo ⟨2, ![n, 50]⟩ b hb)) (broadcast ⟨2, ![n, 50]⟩ (Scalar.ofBits (F := Ideal) .f32 0x00000000#32)) (ix2 p q)
      = Cert.Spec.affRelu (fun k => x (ix2 p k)) w (fun j => b (ix2 0 j)) q := by
  rw [atom_relu_apply, atom_affine_apply]
  rfl

/-- The atom output's payload at an entry, over its operands as the body reads them: the dense layer on the row that
    lays the rectified atom-to-atom row beside the atom's row of summed pair hiddens. -/
theorem atom_out_apply (v0 : Vec Ideal S10000x75 .f32) (v2 : Vec Ideal S10000x50 .f32) (v4 : Vec Ideal S75x50 .f32)
    (v6 : Vec Ideal S100x50 .f32) (v8 v10 : Vec Ideal S1x50 .f32) (p : Fin 10000) (q : Fin 50) :
    k1_pay1 (F := Ideal) v0 v2 v4 v6 v8 v10 (ix2 p q)
      = Cert.Spec.atomRowOut (fun l => v0 (ix2 p l)) (fun j => v2 (ix2 p j)) v4 (fun j => v8 (ix2 0 j)) v6
          (fun j => v10 (ix2 0 j)) q := by
  -- the last dense layer, on the concatenated row
  refine (atom_dense_apply (n := 10000) (K := 100) _ (truncf .bf16 v6 bitsLt_bf16_f32)
    (shapeCast S1x50 v10 shapeCasts_S1x50_S1x50) broadcasts_S1x50_S10000x50 p q).trans ?_
  rw [shapeCast_self v10]
  unfold Cert.Spec.atomRowOut
  refine congrArg (fun r => Cert.Spec.affRelu r v6 (fun j => v10 (ix2 0 j)) q) (funext fun c => ?_)
  -- the concatenated row at a column: left of the seam the atom-to-atom row, right of it the summed pair hiddens
  refine (ColCat.concat_cols_apply (n := 10000) (A := 50) (B := 50) (C := 100) rfl _ _
    concatenates_S10000x50_S10000x50_S10000x100_d1 p c).trans ?_
  unfold Cert.Spec.cat50
  by_cases hk : c.val < 50
  · rw [dif_pos hk, dif_pos hk]
    refine (atom_dense_apply (n := 10000) (K := 75) (truncf .bf16 v0 bitsLt_bf16_f32) (truncf .bf16 v4 bitsLt_bf16_f32)
      (shapeCast S1x50 v8 shapeCasts_S1x50_S1x50) broadcasts_S1x50_S10000x50 p ⟨c.val, hk⟩).trans ?_
    rw [shapeCast_self v8]
    rfl
  · rw [dif_neg hk, dif_neg hk]
    exact congrFun (shapeCast_self v2 shapeCasts_S10000x50_S10000x50) _

/-- The offsets of a whole-buffer access are all zero. -/
theorem atom_offsets_zero : (![0, 0] : Fin 2 → Nat) = fun _ => 0 := by
  funext a
  match a with
  | ⟨0, _⟩ => rfl
  | ⟨1, _⟩ => rfl

/-- What the atom kernel's body leaves in the atom output's buffer, at an entry: the atom row of the specification,
    from the atom's feature row and its row of summed pair hiddens. -/
theorem out1_6_apply (x0 : Vec Ideal S10000x75 .f32) (x1 : Vec Ideal S10000x50 .f32) (x2 : Vec Ideal S75x50 .f32)
    (x3 : Vec Ideal S1x50 .f32) (x4 : Vec Ideal S100x50 .f32) (x5 : Vec Ideal S1x50 .f32) (p : Fin 10000) (q : Fin 50) :
    out1_6 (F := Ideal) x0 x1 x2 x3 x4 x5 (ix2 p q)
      = Cert.Spec.atomRowOut (fun l => x0 (ix2 p l)) (fun j => x1 (ix2 p j)) x2 (fun j => x3 (ix2 0 j)) x4
          (fun j => x5 (ix2 0 j)) q := by
  unfold out1_6
  rw [View.canon_unit_zero atom_offsets_zero]
  simp only [View.ld_unit_zero (S := S10000x75) atom_offsets_zero, View.ld_unit_zero (S := S10000x50) atom_offsets_zero,
    View.ld_unit_zero (S := S75x50) atom_offsets_zero, View.ld_unit_zero (S := S100x50) atom_offsets_zero,
    View.ld_unit_zero (S := S1x50) atom_offsets_zero]
  exact atom_out_apply x0 x1 x2 x4 x3 x5 p q

end Cert.KernelBody

end
-- ==== Proof.KernelValue.lean ====
/-
  The kernel program's two results as the specification's functions of the argument arrays.

  The first region's outputs are row functions of the arrays it finds; those arrays are the arguments, or simple
  host stages of them: a gathered feature table reads the atom features at the row its (normalised, clamped) start
  index names; the two weight halves are the upper and lower 75 rows of the atom-to-pair weights; a one-row bias
  is the bias vector. The second region's output is a row function of the atom features, the weights, the biases
  and the summed pair hiddens, which are the scatter-add of the first region's hidden output.
-/
import proofs.«166549_j61830349193917_1_alg».proof.Proof.HostFold
import proofs.«166549_j61830349193917_1_alg».proof.Proof.Blocks0
import proofs.«166549_j61830349193917_1_alg».proof.Proof.Blocks1
import proofs.«166549_j61830349193917_1_alg».proof.Proof.PairBody
import proofs.«166549_j61830349193917_1_alg».proof.Proof.AtomBody
import proofs.«166549_j61830349193917_1_alg».proof.Proof.Spec
import proofs.«166549_j61830349193917_1_alg».proof.Proof.LibRowDims
import Idealize.ShloMosaic.Lib.ValueLayout

set_option maxRecDepth 16384

noncomputable section

namespace Cert.KernelIdeal.KValue

open Cert.KernelIdeal Cert.KernelIdeal.Gen Cert.KernelIdeal.Fold
open Idealize.ShloMosaic Idealize.ShloMosaic.TcCoe Idealize.ShloMosaic.ValueIdx Idealize.SL.Sem
open Idealize.ShloMosaic.Pipeline (Dat Cfg Window)

/-! ## The row functions respect equal arguments -/

theorem affRelu_congr {K N : Nat} {xr xr' : Fin K → EReal} {w w' : Cert.Spec.Mat K N} {b b' : Fin N → EReal} (q : Fin N)
    (h1 : xr = xr') (h2 : w = w') (h3 : b = b') : Cert.Spec.affRelu xr w b q = Cert.Spec.affRelu xr' w' b' q := by
  subst h1 h2 h3; rfl

theorem pairRow_congr {pfr pfr' : Fin 14 → EReal} {f0 f0' f1 f1' : Fin 75 → EReal} {wpp wpp' : Cert.Spec.Mat 14 50}
    {bpp bpp' : Fin 50 → EReal} {w0 w0' w1 w1' : Cert.Spec.Mat 75 50} {bap bap' : Fin 50 → EReal}
    {wp wp' : Cert.Spec.Mat 100 50} {bp bp' : Fin 50 → EReal} (q : Fin 50)
    (h0 : pfr = pfr') (h1 : f0 = f0') (h2 : f1 = f1') (h3 : wpp = wpp') (h4 : bpp = bpp') (h5 : w0 = w0') (h6 : w1 = w1')
    (h7 : bap = bap') (h8 : wp = wp') (h9 : bp = bp') :
    Cert.Spec.pairRow pfr f0 f1 wpp bpp w0 w1 bap wp bp q = Cert.Spec.pairRow pfr' f0' f1' wpp' bpp' w0' w1' bap' wp' bp' q := by
  subst h0 h1 h2 h3 h4 h5 h6 h7 h8 h9; rfl

theorem atomRowOut_congr {afr afr' : Fin 75 → EReal} {psr psr' : Fin 50 → EReal} {waa waa' : Cert.Spec.Mat 75 50}
    {baa baa' : Fin 50 → EReal} {wa wa' : Cert.Spec.Mat 100 50} {ba ba' : Fin 50 → EReal} (q : Fin 50)
    (h0 : afr = afr') (h1 : psr = psr') (h2 : waa = waa') (h3 : baa = baa') (h4 : wa = wa') (h5 : ba = ba') :
    Cert.Spec.atomRowOut afr psr waa baa wa ba q = Cert.Spec.atomRowOut afr' psr' waa' baa' wa' ba' q := by
  subst h0 h1 h2 h3 h4 h5; rfl

/-! ## The host stages before the first region, read at an entry -/

/-- The start index of pair `r` for column `s` of the index pairs is that entry, normalised. -/
theorem starts_apply0 (x3 : IVec S1000000x2 32) (r : Fin 1000000) :
    startsOf (shapeCast S1000000 (extractStridedSlice S1000000x1 ![0, 0] x3 slices_S1000000x2_S1000000x1_0_0) shapeCasts_S1000000x1_S1000000) (ix2 r (0 : Fin 1))
      = Cert.Spec.normW (x3 (ix2 r (0 : Fin 2))) := by
  have hcol : (shapeCast S1000000 (extractStridedSlice S1000000x1 ![0, 0] x3 slices_S1000000x2_S1000000x1_0_0) shapeCasts_S1000000x1_S1000000) (ix1 r) = x3 (ix2 r (0 : Fin 2)) :=
    (shapeCast_apply _ shapeCasts_S1000000x1_S1000000 (ix1 r) (ix2 r (0 : Fin 1)) (by
      rw [Shape.rowMajor_val_two, Shape.rowMajor_val_one]; show r.val * 1 + 0 = r.val; omega)).trans
    (slice2_axis1_apply 0 x3 slices_S1000000x2_S1000000x1_0_0 r (0 : Fin 1) (0 : Fin 2) rfl)
  have hz : (broadcastInDim S1000000 ![] bcast_S_S1000000 (constantI S_ 32 0#32)) (ix1 r) = 0#32 :=
    broadcastInDim_apply _ bcast_S_S1000000 (constantI S_ 32 0#32) (ix1 r) ix0 (fun a => a.elim0)
  have hk : (broadcastInDim S1000000 ![] bcast_S_S1000000 (constantI S_ 32 50000#32)) (ix1 r) = 50000#32 :=
    broadcastInDim_apply _ bcast_S_S1000000 (constantI S_ 32 50000#32) (ix1 r) ix0 (fun a => a.elim0)
  refine (broadcastInDim_apply _ bcast_S1000000_S1000000x1_0 _ (ix2 r (0 : Fin 1)) (ix1 r) (fun a => match a with
    | ⟨0, _⟩ => by show r.val = if (1000000 : Nat) = 1 then 0 else r.val; rw [if_neg (by decide)])).trans ?_
  change Scalar.select (IntOp.cmpi .slt _ _) (IntOp.addi _ _) _ = _
  rw [hcol, hz, hk]
  rfl

theorem starts_apply1 (x3 : IVec S1000000x2 32) (r : Fin 1000000) :
    startsOf (shapeCast S1000000 (extractStridedSlice S1000000x1 ![0, 1] x3 slices_S1000000x2_S1000000x1_0_1) shapeCasts_S1000000x1_S1000000) (ix2 r (0 : Fin 1))
      = Cert.Spec.normW (x3 (ix2 r (1 : Fin 2))) := by
  have hcol : (shapeCast S1000000 (extractStridedSlice S1000000x1 ![0, 1] x3 slices_S1000000x2_S1000000x1_0_1) shapeCasts_S1000000x1_S1000000) (ix1 r) = x3 (ix2 r (1 : Fin 2)) :=
    (shapeCast_apply _ shapeCasts_S1000000x1_S1000000 (ix1 r) (ix2 r (0 : Fin 1)) (by
      rw [Shape.rowMajor_val_two, Shape.rowMajor_val_one]; show r.val * 1 + 0 = r.val; omega)).trans
    (slice2_axis1_apply 1 x3 slices_S1000000x2_S1000000x1_0_1 r (0 : Fin 1) (1 : Fin 2) rfl)
  have hz : (broadcastInDim S1000000 ![] bcast_S_S1000000 (constantI S_ 32 0#32)) (ix1 r) = 0#32 :=
    broadcastInDim_apply _ bcast_S_S1000000 (constantI S_ 32 0#32) (ix1 r) ix0 (fun a => a.elim0)
  have hk : (broadcastInDim S1000000 ![] bcast_S_S1000000 (constantI S_ 32 50000#32)) (ix1 r) = 50000#32 :=
    broadcastInDim_apply _ bcast_S_S1000000 (constantI S_ 32 50000#32) (ix1 r) ix0 (fun a => a.elim0)
  refine (broadcastInDim_apply _ bcast_S1000000_S1000000x1_0 _ (ix2 r (0 : Fin 1)) (ix1 r) (fun a => match a with
    | ⟨0, _⟩ => by show r.val = if (1000000 : Nat) = 1 then 0 else r.val; rw [if_neg (by decide)])).trans ?_
  change Scalar.select (IntOp.cmpi .slt _ _) (IntOp.addi _ _) _ = _
  rw [hcol, hz, hk]
  rfl

/-- A gathered feature table at `(r, l)` is the atom features at the row the start index of `r` names, clamped. -/
theorem feat_apply (x0 : Vec Ideal S50000x75 .f32) (idx : IVec S1000000x1 32) (r : Fin 1000000) (l : Fin 75) :
    Host.gather gather_S50000x75_S1000000x1_S1000000x75_1_0_n_n_0_1_175 x0 idx (ix2 r l)
      = x0 (ix2 (RowDims.clampRow 50000 (by decide) (idx (ix2 r (0 : Fin 1)))) l) :=
  RowDims.rowGather_apply (N := 50000) (C := 75) (R := 1000000) (by decide)
    gather_S50000x75_S1000000x1_S1000000x75_1_0_n_n_0_1_175_wf x0 idx r l

/-- The upper 75 rows of the atom-to-pair weights. -/
theorem lo_eq (w : Vec Ideal S150x50 .f32) :
    extractStridedSlice S75x50 ![0, 0] w slices_S150x50_S75x50_0_0 = Cert.Spec.rowsLo w := by
  funext i
  obtain ⟨a, b, rfl⟩ : ∃ (a : Fin 75) (b : Fin 50), i = ix2 a b := ⟨i 0, i 1, eq_ix2 i⟩
  exact slice2_axis0_apply 0 w slices_S150x50_S75x50_0_0 a b (Fin.castAdd 75 a) (Nat.zero_add a.val).symm

/-- The lower 75 rows of the atom-to-pair weights. -/
theorem hi_eq (w : Vec Ideal S150x50 .f32) :
    extractStridedSlice S75x50 ![75, 0] w slices_S150x50_S75x50_75_0 = Cert.Spec.rowsHi w := by
  funext i
  obtain ⟨a, b, rfl⟩ : ∃ (a : Fin 75) (b : Fin 50), i = ix2 a b := ⟨i 0, i 1, eq_ix2 i⟩
  exact slice2_axis0_apply 75 w slices_S150x50_S75x50_75_0 a b (Fin.natAdd 75 a) rfl

/-- A bias as a one-row matrix, read at `(0, j)`. -/
theorem bias_apply (b : Vec Ideal S50 .f32) (j : Fin 50) :
    shapeCast S1x50 b shapeCasts_S50_S1x50 (ix2 (0 : Fin 1) j) = b (ix1 j) :=
  shapeCast_a_1a_apply b shapeCasts_S50_S1x50 0 j

/-! ## The two kernel bodies' facts -/

theorem pairBodyFacts : Blocks.PairBodyFacts :=
  ⟨fun x0 x1 x2 x3 x4 x5 x6 x7 x8 x9 x10 x11 p q => Cert.KernelBody.out0_12_apply x0 x1 x2 x3 x4 x5 x6 x7 x8 x9 x10 x11 p q,
   fun x0 x1 x2 x3 x4 x5 x6 x7 x8 x9 x10 x11 p q => Cert.KernelBody.out0_13_apply x0 x1 x2 x3 x4 x5 x6 x7 x8 x9 x10 x11 p q⟩

theorem atomBodyFacts : Blocks1.AtomBodyFacts :=
  fun x0 x1 x2 x3 x4 x5 p q => Cert.KernelBody.out1_6_apply x0 x1 x2 x3 x4 x5 p q

/-! ## The arrays after the regions, as functions of the arguments -/

variable (m : (ℓ : Loc nD τ sig) → Buf (Elt Ideal) ℓ) (ρ : Dev nD → PrngReg)

/-- The first region's hidden output is the specification's pair-to-atom hidden array. -/
theorem kernel_PA (c : Dev nD) : (dat0 (V1 m ρ) c).arrAt 13 cfg0.N
    = Cert.Spec.PAspec (m ((c : Thread nD τ).loc main_arg1)) (m ((c : Thread nD τ).loc main_arg6)) (m ((c : Thread nD τ).loc main_arg7)) := by
  rw [Blocks.final13 (V1 m ρ) pairBodyFacts c]
  funext i
  obtain ⟨r, q, rfl⟩ : ∃ (r : Fin 1000000) (q : Fin 50), i = ix2 r q := ⟨i 0, i 1, eq_ix2 i⟩
  show Blocks.paEntry (V1 m ρ) c r q = Cert.Spec.affRelu (fun k => (m ((c : Thread nD τ).loc main_arg1)) (ix2 r k)) (m ((c : Thread nD τ).loc main_arg6)) (fun j => (m ((c : Thread nD τ).loc main_arg7)) (ix1 j)) q
  unfold Blocks.paEntry
  exact affRelu_congr q
    (funext fun k => congrFun (V1_arg1 m ρ c) (ix2 r k))
    (V1_arg6 m ρ c)
    (funext fun j => (congrFun (V1_v21 m ρ c) (ix2 (0 : Fin 1) j)).trans (bias_apply _ j))

/-- The first region's first output is the specification's pair output. -/
theorem kernel_P (c : Dev nD) : (dat0 (V1 m ρ) c).arrAt 12 cfg0.N
    = Cert.Spec.Pspec (m ((c : Thread nD τ).loc main_arg0)) (m ((c : Thread nD τ).loc main_arg1)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Blocks.final12 (V1 m ρ) pairBodyFacts c]
  funext i
  obtain ⟨r, q, rfl⟩ : ∃ (r : Fin 1000000) (q : Fin 50), i = ix2 r q := ⟨i 0, i 1, eq_ix2 i⟩
  show Blocks.pEntry (V1 m ρ) c r q = Cert.Spec.pairRow (fun k => (m ((c : Thread nD τ).loc main_arg1)) (ix2 r k))
    (fun l => (m ((c : Thread nD τ).loc main_arg0)) (ix2 (Cert.Spec.atomOf (m ((c : Thread nD τ).loc main_arg3)) r 0) l))
    (fun l => (m ((c : Thread nD τ).loc main_arg0)) (ix2 (Cert.Spec.atomOf (m ((c : Thread nD τ).loc main_arg3)) r 1) l))
    (m ((c : Thread nD τ).loc main_arg12)) (fun j => (m ((c : Thread nD τ).loc main_arg13)) (ix1 j)) (Cert.Spec.rowsLo (m ((c : Thread nD τ).loc main_arg10))) (Cert.Spec.rowsHi (m ((c : Thread nD τ).loc main_arg10)))
    (fun j => (m ((c : Thread nD τ).loc main_arg11)) (ix1 j)) (m ((c : Thread nD τ).loc main_arg14)) (fun j => (m ((c : Thread nD τ).loc main_arg15)) (ix1 j)) q
  unfold Blocks.pEntry
  exact pairRow_congr q
    (funext fun k => congrFun (V1_arg1 m ρ c) (ix2 r k))
    (funext fun l => (congrFun (V1_v10 m ρ c) (ix2 r l)).trans ((feat_apply _ _ r l).trans (by rw [starts_apply0]; rfl)))
    (funext fun l => (congrFun (V1_v17 m ρ c) (ix2 r l)).trans ((feat_apply _ _ r l).trans (by rw [starts_apply1]; rfl)))
    (V1_arg12 m ρ c)
    (funext fun j => (congrFun (V1_v22 m ρ c) (ix2 (0 : Fin 1) j)).trans (bias_apply _ j))
    ((V1_v18 m ρ c).trans (lo_eq _))
    ((V1_v19 m ρ c).trans (hi_eq _))
    (funext fun j => (congrFun (V1_v23 m ρ c) (ix2 (0 : Fin 1) j)).trans (bias_apply _ j))
    (V1_arg14 m ρ c)
    (funext fun j => (congrFun (V1_v25 m ρ c) (ix2 (0 : Fin 1) j)).trans (bias_apply _ j))

/-- The second region's output is the specification's atom output, from the scatter-added pair hiddens. -/
theorem kernel_A (c : Dev nD) : (dat1 (V3 m ρ) c).arrAt 6 cfg1.N
    = Cert.Spec.Aspec (m ((c : Thread nD τ).loc main_arg0))
        (Host.scatterAdd (F := Ideal) (φ := .f32) scatter_S50000x50_S1000000x1_S1000000x50_1_0_0_1
          (broadcastInDim S50000x50 ![] bcast_S_S50000x50 (constant (F := Ideal) S_ .f32 0x00000000#32))
          (broadcastInDim S1000000x1 ![0] bcast_S1000000_S1000000x1_0 (m ((c : Thread nD τ).loc main_arg2)))
          (Cert.Spec.PAspec (m ((c : Thread nD τ).loc main_arg1)) (m ((c : Thread nD τ).loc main_arg6)) (m ((c : Thread nD τ).loc main_arg7))))
        (m ((c : Thread nD τ).loc main_arg4)) (m ((c : Thread nD τ).loc main_arg5)) (m ((c : Thread nD τ).loc main_arg8)) (m ((c : Thread nD τ).loc main_arg9)) := by
  rw [Blocks1.final6 (V3 m ρ) atomBodyFacts c]
  funext i
  obtain ⟨r, q, rfl⟩ : ∃ (r : Fin 50000) (q : Fin 50), i = ix2 r q := ⟨i 0, i 1, eq_ix2 i⟩
  have hps : Blocks1.psA (V3 m ρ) c = Host.scatterAdd (F := Ideal) (φ := .f32) scatter_S50000x50_S1000000x1_S1000000x50_1_0_0_1
      (broadcastInDim S50000x50 ![] bcast_S_S50000x50 (constant (F := Ideal) S_ .f32 0x00000000#32))
      (broadcastInDim S1000000x1 ![0] bcast_S1000000_S1000000x1_0 (m ((c : Thread nD τ).loc main_arg2)))
      (Cert.Spec.PAspec (m ((c : Thread nD τ).loc main_arg1)) (m ((c : Thread nD τ).loc main_arg6)) (m ((c : Thread nD τ).loc main_arg7))) :=
    (V3_v29 m ρ c).trans (by rw [kernel_PA m ρ c])
  show Blocks1.aEntry (V3 m ρ) c r q = Cert.Spec.atomRowOut (fun l => (m ((c : Thread nD τ).loc main_arg0)) (ix2 r l))
    (fun j => (Host.scatterAdd (F := Ideal) (φ := .f32) scatter_S50000x50_S1000000x1_S1000000x50_1_0_0_1
      (broadcastInDim S50000x50 ![] bcast_S_S50000x50 (constant (F := Ideal) S_ .f32 0x00000000#32))
      (broadcastInDim S1000000x1 ![0] bcast_S1000000_S1000000x1_0 (m ((c : Thread nD τ).loc main_arg2)))
      (Cert.Spec.PAspec (m ((c : Thread nD τ).loc main_arg1)) (m ((c : Thread nD τ).loc main_arg6)) (m ((c : Thread nD τ).loc main_arg7)))) (ix2 r j))
    (m ((c : Thread nD τ).loc main_arg4)) (fun j => (m ((c : Thread nD τ).loc main_arg5)) (ix1 j)) (m ((c : Thread nD τ).loc main_arg8)) (fun j => (m ((c : Thread nD τ).loc main_arg9)) (ix1 j)) q
  unfold Blocks1.aEntry
  exact atomRowOut_congr q
    (funext fun l => congrFun (V3_arg0 m ρ c) (ix2 r l))
    (funext fun j => congrFun hps (ix2 r j))
    (V3_arg4 m ρ c)
    (funext fun j => (congrFun (V3_v20 m ρ c) (ix2 (0 : Fin 1) j)).trans (bias_apply _ j))
    (V3_arg8 m ρ c)
    (funext fun j => (congrFun (V3_v24 m ρ c) (ix2 (0 : Fin 1) j)).trans (bias_apply _ j))

end Cert.KernelIdeal.KValue

end
-- ==== Proof.RefValue.lean ====
/-
  The reference program's three results, read entry by entry over the extended reals.

  Every dense stage of the reference is a contraction, a bias row broadcast over the rows, and a maximum with the
  zero array; read at the entry `(p, q)` it is `max (∑ k, x (p, k) · w (k, q) + b q) 0`.  A two-piece join along the
  columns reads its left piece left of the seam and its right piece past it.  The row gather at start indices
  `[R, 2, 1]` reads, at `(r, s, c)`, the table's entry `(clamp (idx (r, s, 0)), c)`; the reshape of `[R, 2, 75]` to
  `[R, 150]` sends column `l < 75` to `(r, 0, l)` and column `75 + l` to `(r, 1, l)`, so a contraction over the 150
  columns is the sum of the two 75-term contractions against the upper and the lower half of the weights; the
  reversal along the middle axis exchanges the two gathered rows.
-/
import proofs.«166549_j61830349193917_1_alg».proof.Proof.Gen.ReferenceIdeal.Read
import proofs.«166549_j61830349193917_1_alg».proof.Proof.Spec
import proofs.«166549_j61830349193917_1_alg».proof.Proof.LibRowDims
import proofs.«166549_j61830349193917_1_alg».proof.Proof.LibColCat
import Idealize.ShloMosaic.PureOps.Ideal.Laws
import Idealize.ShloMosaic.Lib.ValueIdx
import Mathlib.Algebra.BigOperators.Fin

noncomputable section

open scoped BigOperators

namespace Cert.RefValue

open Cert.ReferenceIdeal Cert.ReferenceIdeal.Gen Cert.ReferenceIdeal.Read Idealize.ShloMosaic Idealize.ShloMosaic.ValueIdx

/-- Two indices of rank two with equal coordinates are equal. -/
local macro "idx2_rfl" : tactic =>
  `(tactic| (funext a; refine Fin.ext ?_; match a with | ⟨0, _⟩ => rfl | ⟨1, _⟩ => rfl))

/-! ## A dense stage with the rectifier, read at an entry -/

/-- The shape every dense stage takes once its operations are read at an entry. -/
theorem dense_entry {K N : Nat} (xr : Fin K → EReal) (w : Cert.Spec.Mat K N) (b : Fin N → EReal) (q : Fin N) :
    max ((∑ k : Fin K, xr k * w (ix2 k q)) + b q) (Ideal.ofBits .f32 0x00000000#32) = Cert.Spec.affRelu xr w b q := by
  rw [Ideal.ofBits_zero_f32]
  rfl

/-! ## The pair-to-atom hidden array -/

theorem lidx5_eq (p : Fin 1000000) (q : Fin 50) (k : Fin 14) : lidx_main_v5 (ix2 p q) k = ix2 p k := by idx2_rfl
theorem ridx5_eq (p : Fin 1000000) (q : Fin 50) (k : Fin 14) : ridx_main_v5 (ix2 p q) k = ix2 k q := by idx2_rfl
theorem bias7_eq (p : Fin 1000000) (q : Fin 50) : idx_main_v6 (idx_main_v7 (ix2 p q)) = ix1 q := by
  funext a; refine Fin.ext ?_; match a with | ⟨0, _⟩ => rfl

theorem ref_PA (x1 : (⟨S1000000x14, .f32⟩ : BufTy).Contents (Elt Ideal)) (x6 : (⟨S14x50, .f32⟩ : BufTy).Contents (Elt Ideal)) (x7 : (⟨S50, .f32⟩ : BufTy).Contents (Elt Ideal)) :
    val_main_v9 (F := Ideal) x1 x6 x7 = Cert.Spec.PAspec x1 x6 x7 := by
  funext i
  obtain ⟨p, q, rfl⟩ : ∃ p q, i = ix2 p q := ⟨i 0, i 1, eq_ix2 i⟩
  rw [val_main_v9_apply, val_main_v8_apply, val_main_v5_apply, val_main_v7_apply, val_main_v6_apply,
    val_main_call1_v0_apply, val_main_call1_cst_apply, bias7_eq]
  simp only [lidx5_eq, ridx5_eq]
  exact dense_entry (fun k => x1 (ix2 p k)) x6 (fun j => x7 (ix1 j)) q

/-! ## The atom output array -/

theorem lidx0_eq (p : Fin 50000) (q : Fin 50) (k : Fin 75) : lidx_main_v0 (ix2 p q) k = ix2 p k := by idx2_rfl
theorem ridx0_eq (p : Fin 50000) (q : Fin 50) (k : Fin 75) : ridx_main_v0 (ix2 p q) k = ix2 k q := by idx2_rfl
theorem bias2_eq (p : Fin 50000) (q : Fin 50) : idx_main_v1 (idx_main_v2 (ix2 p q)) = ix1 q := by
  funext a; refine Fin.ext ?_; match a with | ⟨0, _⟩ => rfl
theorem lidx14_eq (p : Fin 50000) (q : Fin 50) (k : Fin 100) : lidx_main_v14 (ix2 p q) k = ix2 p k := by idx2_rfl
theorem ridx14_eq (p : Fin 50000) (q : Fin 50) (k : Fin 100) : ridx_main_v14 (ix2 p q) k = ix2 k q := by idx2_rfl
theorem bias16_eq (p : Fin 50000) (q : Fin 50) : idx_main_v15 (idx_main_v16 (ix2 p q)) = ix1 q := by
  funext a; refine Fin.ext ?_; match a with | ⟨0, _⟩ => rfl

/-- The atom-to-atom hidden array at an entry: the dense stage on the atom's feature row. -/
theorem v4_entry (x0 : (⟨S50000x75, .f32⟩ : BufTy).Contents (Elt Ideal)) (x4 : (⟨S75x50, .f32⟩ : BufTy).Contents (Elt Ideal)) (x5 : (⟨S50, .f32⟩ : BufTy).Contents (Elt Ideal))
    (p : Fin 50000) (q : Fin 50) :
    val_main_v4 (F := Ideal) x0 x4 x5 (ix2 p q)
      = Cert.Spec.affRelu (fun l => x0 (ix2 p l)) x4 (fun j => x5 (ix1 j)) q := by
  rw [val_main_v4_apply, val_main_v3_apply, val_main_v0_apply, val_main_v2_apply, val_main_v1_apply,
    val_main_call0_v0_apply, val_main_call0_cst_apply, bias2_eq]
  simp only [lidx0_eq, ridx0_eq]
  exact dense_entry (fun l => x0 (ix2 p l)) x4 (fun j => x5 (ix1 j)) q

/-- Two arrays `[n, 50]` joined along the columns, read at an entry, are the two rows laid side by side. -/
theorem cat50_entry {n : Nat} (a b : Cert.Spec.Mat n 50)
    (h : Shape.Concatenates [(⟨2, ![n, 50]⟩ : Shape), ⟨2, ![n, 50]⟩] ⟨2, ![n, 100]⟩ 1) (p : Fin n) (k : Fin 100) :
    concatenate ⟨2, ![n, 100]⟩ 1 [⟨⟨2, ![n, 50]⟩, a⟩, ⟨⟨2, ![n, 50]⟩, b⟩] h (ix2 p k)
      = Cert.Spec.cat50 (fun j => a (ix2 p j)) (fun j => b (ix2 p j)) k :=
  ColCat.concat_cols_apply (n := n) (A := 50) (B := 50) (C := 100) rfl a b h p k

theorem ref_A (x0 : (⟨S50000x75, .f32⟩ : BufTy).Contents (Elt Ideal)) (x1 : (⟨S1000000x14, .f32⟩ : BufTy).Contents (Elt Ideal)) (x2 : (⟨S1000000, .i32⟩ : BufTy).Contents (Elt Ideal)) (x4 : (⟨S75x50, .f32⟩ : BufTy).Contents (Elt Ideal)) (x5 : (⟨S50, .f32⟩ : BufTy).Contents (Elt Ideal)) (x6 : (⟨S14x50, .f32⟩ : BufTy).Contents (Elt Ideal)) (x7 : (⟨S50, .f32⟩ : BufTy).Contents (Elt Ideal)) (x8 : (⟨S100x50, .f32⟩ : BufTy).Contents (Elt Ideal)) (x9 : (⟨S50, .f32⟩ : BufTy).Contents (Elt Ideal)) :
    val_main_v18 (F := Ideal) x0 x1 x2 x4 x5 x6 x7 x8 x9
      = Cert.Spec.Aspec x0 (Host.scatterAdd (F := Ideal) (φ := .f32) scatter_S50000x50_S1000000x1_S1000000x50_1_0_0_1 (val_main_v10 (F := Ideal)) (val_main_v11 (F := Ideal) x2) (Cert.Spec.PAspec x1 x6 x7)) x4 x5 x8 x9 := by
  funext i
  obtain ⟨p, q, rfl⟩ : ∃ p q, i = ix2 p q := ⟨i 0, i 1, eq_ix2 i⟩
  rw [val_main_v18_apply, val_main_v17_apply, val_main_v14_apply, val_main_v16_apply, val_main_v15_apply,
    val_main_call2_v0_apply, val_main_call2_cst_apply, bias16_eq]
  simp only [lidx14_eq, ridx14_eq]
  -- the joined array: the atom-to-atom hidden row beside the row of summed pair hiddens, the same scatter-add of the
  -- pair-to-atom hidden array on both sides
  have hcat : ∀ k : Fin 100, val_main_v13 (F := Ideal) x0 x1 x2 x4 x5 x6 x7 (ix2 p k)
      = Cert.Spec.cat50 (Cert.Spec.affRelu (fun l => x0 (ix2 p l)) x4 (fun j => x5 (ix1 j)))
          (fun j => Host.scatterAdd (F := Ideal) (φ := .f32) scatter_S50000x50_S1000000x1_S1000000x50_1_0_0_1 (val_main_v10 (F := Ideal))
            (val_main_v11 (F := Ideal) x2) (Cert.Spec.PAspec x1 x6 x7) (ix2 p j)) k := by
    intro k
    unfold val_main_v13 val_main_v12
    rw [ref_PA]
    generalize Host.scatterAdd (F := Ideal) (φ := .f32) scatter_S50000x50_S1000000x1_S1000000x50_1_0_0_1 (val_main_v10 (F := Ideal))
      (val_main_v11 (F := Ideal) x2) (Cert.Spec.PAspec x1 x6 x7) = ps
    refine (cat50_entry (val_main_v4 (F := Ideal) x0 x4 x5) ps _ p k).trans ?_
    simp only [v4_entry]
  simp only [hcat]
  exact dense_entry _ x8 (fun j => x9 (ix1 j)) q

/-! ## The row gather at start indices `[R, S, 1]` -/

/-- The dimension numbers of `x[idx]` for a table `[N, C]`, start indices `[R, S, 1]` and result `[R, S, C]`. -/
abbrev pairGather (N C R S : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- The result entry `(r, s, c)` reads its one start-index component at `(r, s, 0)` of the start indices. -/
theorem pairGather_siIdx {N C R S : Nat}
    (wf : GatherDims.WF ⟨2, ![N, C]⟩ ⟨3, ![R, S, 1]⟩ ⟨3, ![R, S, C]⟩ [2] [0] [] [0] [] 2 ![1, C])
    (r : Fin R) (s : Fin S) (c : Fin C) :
    (pairGather N C R S wf).siIdx (ix3 r s c) ⟨List.idxOf (0 : Fin 2) (pairGather N C R S wf).startIndexMap,
      List.idxOf_lt_length_iff.2 (List.mem_singleton.mpr rfl)⟩ = ix3 r s 0 := by
  funext b; refine Fin.ext ?_
  match b with
  | ⟨0, _⟩ => rfl
  | ⟨1, _⟩ => rfl
  | ⟨2, _⟩ => rfl

/-- On the table's row axis (collapsed, named by the start index map) the operand index is the clamped start alone. -/
theorem pairGather_operandIdx_row {N C R S w : Nat} (hN : 0 < N)
    (wf : GatherDims.WF ⟨2, ![N, C]⟩ ⟨3, ![R, S, 1]⟩ ⟨3, ![R, S, C]⟩ [2] [0] [] [0] [] 2 ![1, C])
    (idx : IVec ⟨3, ![R, S, 1]⟩ w) (r : Fin R) (s : Fin S) (c : Fin C) :
    ((pairGather N C R S wf).operandIdx (ix3 r s c) idx 0).val = (RowDims.clampRow N hN (idx (ix3 r s 0))).val := by
  show (pairGather N C R S wf).start (ix3 r s c) idx 0 + (pairGather N C R S wf).batchCoord (ix3 r s c) 0
    + (pairGather N C R S wf).offCoord (ix3 r s c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (pairGather N C R S wf).startIndexMap from List.mem_singleton.mpr rfl)]
  rw [pairGather_siIdx wf r s c]
  rfl

/-- On the table's column axis (the offset axis) the operand index is the offset coordinate alone: the result's
    last coordinate. -/
theorem pairGather_operandIdx_col {N C R S w : Nat}
    (wf : GatherDims.WF ⟨2, ![N, C]⟩ ⟨3, ![R, S, 1]⟩ ⟨3, ![R, S, C]⟩ [2] [0] [] [0] [] 2 ![1, C])
    (idx : IVec ⟨3, ![R, S, 1]⟩ w) (r : Fin R) (s : Fin S) (c : Fin C) :
    ((pairGather N C R S wf).operandIdx (ix3 r s c) idx 1).val = c.val := by
  show (pairGather N C R S wf).start (ix3 r s c) idx 1 + (pairGather N C R S wf).batchCoord (ix3 r s c) 1
    + (pairGather N C R S wf).offCoord (ix3 r s c) 1 = _
  rw [GatherDims.batchCoord_eq_zero _ _ _ List.not_mem_nil]
  unfold GatherDims.start
  rw [dif_neg (show ¬ (1 : Fin 2) ∈ (pairGather N C R S wf).startIndexMap from
    fun h => absurd (congrArg Fin.val (List.mem_singleton.mp h)) Nat.one_ne_zero)]
  simp only [Nat.add_zero, Nat.zero_add]
  rfl

/-- The gather read at `(r, s, c)`: the table at row `clampRow (idx (r, s, 0))`, column `c`. -/
theorem pairGather_apply {α : Type} {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (c : Fin C) :
    Host.gather (pairGather N C R S wf) x idx (ix3 r s c) = x (ix2 (RowDims.clampRow N hN (idx (ix3 r s 0))) c) := by
  unfold Host.gather
  congr 1
  funext a
  refine Fin.ext ?_
  match a with
  | ⟨0, _⟩ => exact pairGather_operandIdx_row hN wf idx r s c
  | ⟨1, _⟩ => exact pairGather_operandIdx_col wf idx r s c

/-! ## A reversal along the middle axis of a rank-three array -/

/-- Reversed along its middle axis, the array read at `(r, s, c)` is the array at `(r, S − 1 − s, c)`. -/
theorem reverse_mid_apply {α : Type} {R S C : Nat} (x : (⟨3, ![R, S, C]⟩ : Shape).Idx → α) (r : Fin R) (s : Fin S) (c : Fin C) :
    Host.reverse (s := ⟨3, ![R, S, C]⟩) [1] x (ix3 r s c) = x (ix3 r s.rev c) := by
  unfold Host.reverse
  congr 1
  funext a
  match a with
  | ⟨0, _⟩ => exact if_neg (fun h => absurd (congrArg Fin.val (List.mem_singleton.mp h)) Nat.zero_ne_one)
  | ⟨1, _⟩ => exact if_pos (List.mem_singleton.mpr rfl)
  | ⟨2, _⟩ => exact if_neg (fun h => absurd (congrArg Fin.val (List.mem_singleton.mp h)) (show (2 : Nat) ≠ 1 by decide))

/-! ## A contraction over 150 columns in two halves -/

theorem sum150 (f : Fin 150 → EReal) :
    ∑ k : Fin 150, f k = (∑ l : Fin 75, f (Fin.castAdd 75 l)) + ∑ l : Fin 75, f (Fin.natAdd 75 l) :=
  Fin.sum_univ_add (a := 75) (b := 75) f

/-! ## The pair output array -/

/-- The start indices as the gather reads them: a negative one moved up by the table's height. -/
theorem v23_entry (x3 : (⟨S1000000x2, .i32⟩ : BufTy).Contents (Elt Ideal)) (r : Fin 1000000) (s : Fin 2) :
    val_main_v23 (F := Ideal) x3 (ix2 r s) = Cert.Spec.normW (x3 (ix2 r s)) := by
  rw [val_main_v23_apply, val_main_v20_apply, val_main_v22_apply, val_main_v19_apply, val_main_v21_apply,
    val_main_c_apply, val_main_c_0_apply]
  rfl

theorem idx24_eq (r : Fin 1000000) (s : Fin 2) : idx_main_v24 (ix3 r s (0 : Fin 1)) = ix2 r s := by idx2_rfl

/-- The gathered array at `(r, s, c)`: the feature table at the row of the atom that column `s` of pair `r` names. -/
theorem v25_entry (x0 : (⟨S50000x75, .f32⟩ : BufTy).Contents (Elt Ideal)) (x3 : (⟨S1000000x2, .i32⟩ : BufTy).Contents (Elt Ideal))
    (r : Fin 1000000) (s : Fin 2) (c : Fin 75) :
    val_main_v25 (F := Ideal) x0 x3 (ix3 r s c) = x0 (ix2 (Cert.Spec.atomOf x3 r s) c) := by
  unfold val_main_v25
  refine (pairGather_apply (N := 50000) (C := 75) (R := 1000000) (S := 2) (by decide)
    gather_S50000x75_S1000000x2x1_S1000000x2x75_2_0_n_n_0_2_175.wf x0 (val_main_v24 (F := Ideal) x3) r s c).trans ?_
  rw [val_main_v24_apply, idx24_eq, v23_entry]
  rfl

/-- The reversed gathered array at `(r, s, c)`: the other atom's feature row. -/
theorem v32_entry (x0 : (⟨S50000x75, .f32⟩ : BufTy).Contents (Elt Ideal)) (x3 : (⟨S1000000x2, .i32⟩ : BufTy).Contents (Elt Ideal))
    (r : Fin 1000000) (s : Fin 2) (c : Fin 75) :
    val_main_v32 (F := Ideal) x0 x3 (ix3 r s c) = x0 (ix2 (Cert.Spec.atomOf x3 r s.rev) c) := by
  unfold val_main_v32
  refine (reverse_mid_apply (val_main_v25 (F := Ideal) x0 x3) r s c).trans ?_
  exact v25_entry x0 x3 r s.rev c

/-- The reshape's source index of a column in the first half: the first atom's row. -/
theorem idx26_lo (p : Fin 1000000) (l : Fin 75) : idx_main_v26 (ix2 p (Fin.castAdd 75 l)) = ix3 p (0 : Fin 2) l := by
  funext a; refine Fin.ext ?_
  have hl := l.isLt
  match a with
  | ⟨0, _⟩ => show (p.val * 150 + l.val) / 150 = p.val; omega
  | ⟨1, _⟩ => show (p.val * 150 + l.val) / 75 % 2 = 0; omega
  | ⟨2, _⟩ => show (p.val * 150 + l.val) % 75 = l.val; omega
/-- The reshape's source index of a column in the second half: the second atom's row. -/
theorem idx26_hi (p : Fin 1000000) (l : Fin 75) : idx_main_v26 (ix2 p (Fin.natAdd 75 l)) = ix3 p (1 : Fin 2) l := by
  funext a; refine Fin.ext ?_
  have hl := l.isLt
  match a with
  | ⟨0, _⟩ => show (p.val * 150 + (75 + l.val)) / 150 = p.val; omega
  | ⟨1, _⟩ => show (p.val * 150 + (75 + l.val)) / 75 % 2 = 1; omega
  | ⟨2, _⟩ => show (p.val * 150 + (75 + l.val)) % 75 = l.val; omega
theorem idx33_lo (p : Fin 1000000) (l : Fin 75) : idx_main_v33 (ix2 p (Fin.castAdd 75 l)) = ix3 p (0 : Fin 2) l := by
  funext a; refine Fin.ext ?_
  have hl := l.isLt
  match a with
  | ⟨0, _⟩ => show (p.val * 150 + l.val) / 150 = p.val; omega
  | ⟨1, _⟩ => show (p.val * 150 + l.val) / 75 % 2 = 0; omega
  | ⟨2, _⟩ => show (p.val * 150 + l.val) % 75 = l.val; omega
theorem idx33_hi (p : Fin 1000000) (l : Fin 75) : idx_main_v33 (ix2 p (Fin.natAdd 75 l)) = ix3 p (1 : Fin 2) l := by
  funext a; refine Fin.ext ?_
  have hl := l.isLt
  match a with
  | ⟨0, _⟩ => show (p.val * 150 + (75 + l.val)) / 150 = p.val; omega
  | ⟨1, _⟩ => show (p.val * 150 + (75 + l.val)) / 75 % 2 = 1; omega
  | ⟨2, _⟩ => show (p.val * 150 + (75 + l.val)) % 75 = l.val; omega

theorem lidx27_eq (p : Fin 1000000) (q : Fin 50) (k : Fin 150) : lidx_main_v27 (ix2 p q) k = ix2 p k := by idx2_rfl
theorem ridx27_eq (p : Fin 1000000) (q : Fin 50) (k : Fin 150) : ridx_main_v27 (ix2 p q) k = ix2 k q := by idx2_rfl
theorem lidx34_eq (p : Fin 1000000) (q : Fin 50) (k : Fin 150) : lidx_main_v34 (ix2 p q) k = ix2 p k := by idx2_rfl
theorem ridx34_eq (p : Fin 1000000) (q : Fin 50) (k : Fin 150) : ridx_main_v34 (ix2 p q) k = ix2 k q := by idx2_rfl
theorem bias29_eq (p : Fin 1000000) (q : Fin 50) : idx_main_v28 (idx_main_v29 (ix2 p q)) = ix1 q := by
  funext a; refine Fin.ext ?_; match a with | ⟨0, _⟩ => rfl
theorem bias36_eq (p : Fin 1000000) (q : Fin 50) : idx_main_v35 (idx_main_v36 (ix2 p q)) = ix1 q := by
  funext a; refine Fin.ext ?_; match a with | ⟨0, _⟩ => rfl

/-- The reshaped gather at a column of the first half, and of the second. -/
theorem v26_lo (x0 : (⟨S50000x75, .f32⟩ : BufTy).Contents (Elt Ideal)) (x3 : (⟨S1000000x2, .i32⟩ : BufTy).Contents (Elt Ideal))
    (p : Fin 1000000) (l : Fin 75) :
    val_main_v26 (F := Ideal) x0 x3 (ix2 p (Fin.castAdd 75 l)) = x0 (ix2 (Cert.Spec.atomOf x3 p 0) l) := by
  rw [val_main_v26_apply, idx26_lo]; exact v25_entry x0 x3 p 0 l
theorem v26_hi (x0 : (⟨S50000x75, .f32⟩ : BufTy).Contents (Elt Ideal)) (x3 : (⟨S1000000x2, .i32⟩ : BufTy).Contents (Elt Ideal))
    (p : Fin 1000000) (l : Fin 75) :
    val_main_v26 (F := Ideal) x0 x3 (ix2 p (Fin.natAdd 75 l)) = x0 (ix2 (Cert.Spec.atomOf x3 p 1) l) := by
  rw [val_main_v26_apply, idx26_hi]; exact v25_entry x0 x3 p 1 l
/-- The reshaped reversed gather: the two atoms exchanged. -/
theorem v33_lo (x0 : (⟨S50000x75, .f32⟩ : BufTy).Contents (Elt Ideal)) (x3 : (⟨S1000000x2, .i32⟩ : BufTy).Contents (Elt Ideal))
    (p : Fin 1000000) (l : Fin 75) :
    val_main_v33 (F := Ideal) x0 x3 (ix2 p (Fin.castAdd 75 l)) = x0 (ix2 (Cert.Spec.atomOf x3 p 1) l) := by
  rw [val_main_v33_apply, idx33_lo]; exact v32_entry x0 x3 p 0 l
theorem v33_hi (x0 : (⟨S50000x75, .f32⟩ : BufTy).Contents (Elt Ideal)) (x3 : (⟨S1000000x2, .i32⟩ : BufTy).Contents (Elt Ideal))
    (p : Fin 1000000) (l : Fin 75) :
    val_main_v33 (F := Ideal) x0 x3 (ix2 p (Fin.natAdd 75 l)) = x0 (ix2 (Cert.Spec.atomOf x3 p 0) l) := by
  rw [val_main_v33_apply, idx33_hi]; exact v32_entry x0 x3 p 1 l

/-- The shape the atom-to-pair stage takes once read at an entry. -/
theorem ap_entry (f g : Fin 75 → EReal) (w : Cert.Spec.Mat 150 50) (b : Fin 50 → EReal) (q : Fin 50) :
    max (((∑ l : Fin 75, f l * w (ix2 (Fin.castAdd 75 l) q)) + ∑ l : Fin 75, g l * w (ix2 (Fin.natAdd 75 l) q)) + b q)
        (Ideal.ofBits .f32 0x00000000#32)
      = Cert.Spec.apRow f g (Cert.Spec.rowsLo w) (Cert.Spec.rowsHi w) b q := by
  rw [Ideal.ofBits_zero_f32]
  rfl

/-- The atom-to-pair hidden array in the order (first atom, second atom). -/
theorem v31_entry (x0 : (⟨S50000x75, .f32⟩ : BufTy).Contents (Elt Ideal)) (x3 : (⟨S1000000x2, .i32⟩ : BufTy).Contents (Elt Ideal)) (x10 : (⟨S150x50, .f32⟩ : BufTy).Contents (Elt Ideal)) (x11 : (⟨S50, .f32⟩ : BufTy).Contents (Elt Ideal))
    (p : Fin 1000000) (q : Fin 50) :
    val_main_v31 (F := Ideal) x0 x3 x10 x11 (ix2 p q)
      = Cert.Spec.apRow (fun l => x0 (ix2 (Cert.Spec.atomOf x3 p 0) l)) (fun l => x0 (ix2 (Cert.Spec.atomOf x3 p 1) l))
          (Cert.Spec.rowsLo x10) (Cert.Spec.rowsHi x10) (fun j => x11 (ix1 j)) q := by
  rw [val_main_v31_apply, val_main_v30_apply, val_main_v27_apply, val_main_v29_apply, val_main_v28_apply,
    val_main_call3_v0_apply, val_main_call3_cst_apply, bias29_eq, sum150]
  simp only [lidx27_eq, ridx27_eq, v26_lo, v26_hi]
  exact ap_entry _ _ x10 (fun j => x11 (ix1 j)) q

/-- The atom-to-pair hidden array in the order (second atom, first atom). -/
theorem v38_entry (x0 : (⟨S50000x75, .f32⟩ : BufTy).Contents (Elt Ideal)) (x3 : (⟨S1000000x2, .i32⟩ : BufTy).Contents (Elt Ideal)) (x10 : (⟨S150x50, .f32⟩ : BufTy).Contents (Elt Ideal)) (x11 : (⟨S50, .f32⟩ : BufTy).Contents (Elt Ideal))
    (p : Fin 1000000) (q : Fin 50) :
    val_main_v38 (F := Ideal) x0 x3 x10 x11 (ix2 p q)
      = Cert.Spec.apRow (fun l => x0 (ix2 (Cert.Spec.atomOf x3 p 1) l)) (fun l => x0 (ix2 (Cert.Spec.atomOf x3 p 0) l))
          (Cert.Spec.rowsLo x10) (Cert.Spec.rowsHi x10) (fun j => x11 (ix1 j)) q := by
  rw [val_main_v38_apply, val_main_v37_apply, val_main_v34_apply, val_main_v36_apply, val_main_v35_apply,
    val_main_call4_v0_apply, val_main_call4_cst_apply, bias36_eq, sum150]
  simp only [lidx34_eq, ridx34_eq, v33_lo, v33_hi]
  exact ap_entry _ _ x10 (fun j => x11 (ix1 j)) q

theorem lidx39_eq (p : Fin 1000000) (q : Fin 50) (k : Fin 14) : lidx_main_v39 (ix2 p q) k = ix2 p k := by idx2_rfl
theorem ridx39_eq (p : Fin 1000000) (q : Fin 50) (k : Fin 14) : ridx_main_v39 (ix2 p q) k = ix2 k q := by idx2_rfl
theorem bias41_eq (p : Fin 1000000) (q : Fin 50) : idx_main_v40 (idx_main_v41 (ix2 p q)) = ix1 q := by
  funext a; refine Fin.ext ?_; match a with | ⟨0, _⟩ => rfl
theorem lidx46_eq (p : Fin 1000000) (q : Fin 50) (k : Fin 100) : lidx_main_v46 (ix2 p q) k = ix2 p k := by idx2_rfl
theorem ridx46_eq (p : Fin 1000000) (q : Fin 50) (k : Fin 100) : ridx_main_v46 (ix2 p q) k = ix2 k q := by idx2_rfl
theorem bias48_eq (p : Fin 1000000) (q : Fin 50) : idx_main_v47 (idx_main_v48 (ix2 p q)) = ix1 q := by
  funext a; refine Fin.ext ?_; match a with | ⟨0, _⟩ => rfl

/-- The pair-to-pair hidden array at an entry: the dense stage on the pair's feature row. -/
theorem v43_entry (x1 : (⟨S1000000x14, .f32⟩ : BufTy).Contents (Elt Ideal)) (x12 : (⟨S14x50, .f32⟩ : BufTy).Contents (Elt Ideal)) (x13 : (⟨S50, .f32⟩ : BufTy).Contents (Elt Ideal))
    (p : Fin 1000000) (q : Fin 50) :
    val_main_v43 (F := Ideal) x1 x12 x13 (ix2 p q)
      = Cert.Spec.affRelu (fun k => x1 (ix2 p k)) x12 (fun j => x13 (ix1 j)) q := by
  rw [val_main_v43_apply, val_main_v42_apply, val_main_v39_apply, val_main_v41_apply, val_main_v40_apply,
    val_main_call5_v0_apply, val_main_call5_cst_apply, bias41_eq]
  simp only [lidx39_eq, ridx39_eq]
  exact dense_entry (fun k => x1 (ix2 p k)) x12 (fun j => x13 (ix1 j)) q

theorem ref_P (x0 : (⟨S50000x75, .f32⟩ : BufTy).Contents (Elt Ideal)) (x1 : (⟨S1000000x14, .f32⟩ : BufTy).Contents (Elt Ideal)) (x3 : (⟨S1000000x2, .i32⟩ : BufTy).Contents (Elt Ideal)) (x10 : (⟨S150x50, .f32⟩ : BufTy).Contents (Elt Ideal)) (x11 : (⟨S50, .f32⟩ : BufTy).Contents (Elt Ideal)) (x12 : (⟨S14x50, .f32⟩ : BufTy).Contents (Elt Ideal)) (x13 : (⟨S50, .f32⟩ : BufTy).Contents (Elt Ideal)) (x14 : (⟨S100x50, .f32⟩ : BufTy).Contents (Elt Ideal)) (x15 : (⟨S50, .f32⟩ : BufTy).Contents (Elt Ideal)) :
    val_main_v50 (F := Ideal) x0 x1 x3 x10 x11 x12 x13 x14 x15 = Cert.Spec.Pspec x0 x1 x3 x10 x11 x12 x13 x14 x15 := by
  funext i
  obtain ⟨p, q, rfl⟩ : ∃ p q, i = ix2 p q := ⟨i 0, i 1, eq_ix2 i⟩
  rw [val_main_v50_apply, val_main_v49_apply, val_main_v46_apply, val_main_v48_apply, val_main_v47_apply,
    val_main_call6_v0_apply, val_main_call6_cst_apply, bias48_eq]
  simp only [lidx46_eq, ridx46_eq]
  -- the joined array: the sum of the two atom-to-pair hidden rows beside the pair-to-pair hidden row
  have hcat : ∀ k : Fin 100, val_main_v45 (F := Ideal) x0 x1 x3 x10 x11 x12 x13 (ix2 p k)
      = Cert.Spec.cat50
          (fun j => Cert.Spec.apRow (fun l => x0 (ix2 (Cert.Spec.atomOf x3 p 0) l)) (fun l => x0 (ix2 (Cert.Spec.atomOf x3 p 1) l))
              (Cert.Spec.rowsLo x10) (Cert.Spec.rowsHi x10) (fun j => x11 (ix1 j)) j
            + Cert.Spec.apRow (fun l => x0 (ix2 (Cert.Spec.atomOf x3 p 1) l)) (fun l => x0 (ix2 (Cert.Spec.atomOf x3 p 0) l))
              (Cert.Spec.rowsLo x10) (Cert.Spec.rowsHi x10) (fun j => x11 (ix1 j)) j)
          (Cert.Spec.affRelu (fun k => x1 (ix2 p k)) x12 (fun j => x13 (ix1 j))) k := by
    intro k
    unfold val_main_v45
    refine (cat50_entry (val_main_v44 (F := Ideal) x0 x3 x10 x11) (val_main_v43 (F := Ideal) x1 x12 x13) _ p k).trans ?_
    simp only [val_main_v44_apply, v31_entry, v38_entry, v43_entry]
    rfl
  simp only [hcat]
  exact dense_entry _ x14 (fun j => x15 (ix1 j)) q

end Cert.RefValue

end
-- ==== Proof.lean ====
/-
  The pair kernel and the atom kernel against the jnp reference, over the extended reals.

  Both programs compute one message-passing layer. Per pair: a hidden row `relu(pf·W_PA + b_PA)`; the two
  atom-to-pair rows `relu([f₀, f₁]·W_AP + b_AP)` and `relu([f₁, f₀]·W_AP + b_AP)` of the pair's two atoms' feature
  rows; `relu(pf·W_PP + b_PP)`; and the pair output `relu([AP_ij + AP_ji, PP]·W_P + b_P)`. Per atom: the hidden rows of
  its pairs summed (one scatter-add, the same in both programs, never opened here), and the atom output
  `relu([relu(af·W_AA + b_AA), PA_sum]·W_A + b_A)`. The kernel program splits the concatenated product
  `[f₀, f₁]·W_AP` into `f₀·W_AP[0:75] + f₁·W_AP[75:150]`, tiles the million pairs in blocks of 5000 rows and the
  atoms in blocks of 10000; the reference contracts over all 150 columns at once. The two are one function of the
  arguments, entry by entry: a sum over 150 terms is the sum of its two halves, and every entry depends on its
  own row only. No law is used that fails at infinities, so the finiteness of the inputs is never opened.

  The kernel side: the launch over the program's segments with the two result arrays named, the operand arrays of
  each region read back to the arguments, each region's output array as a row function of them, the two kernel
  bodies entry by entry. The reference side: its run, each stage read at an entry.
-/
import proofs.«166549_j61830349193917_1_alg».proof.Defs
import proofs.«166549_j61830349193917_1_alg».proof.Proof.Gen.Kernel
import proofs.«166549_j61830349193917_1_alg».proof.Proof.Gen.Kernel.Skeleton
import proofs.«166549_j61830349193917_1_alg».proof.Proof.Gen.Kernel.Launch
import proofs.«166549_j61830349193917_1_alg».proof.Proof.Gen.Kernel.Points
import proofs.«166549_j61830349193917_1_alg».proof.Proof.Gen.Kernel.Frame
import proofs.«166549_j61830349193917_1_alg».proof.Proof.Gen.KernelIdeal
import proofs.«166549_j61830349193917_1_alg».proof.Proof.Gen.KernelIdeal.Skeleton
import proofs.«166549_j61830349193917_1_alg».proof.Proof.Gen.KernelIdeal.Launch
import proofs.«166549_j61830349193917_1_alg».proof.Proof.Gen.KernelIdeal.Points
import proofs.«166549_j61830349193917_1_alg».proof.Proof.Gen.KernelIdeal.Frame
import proofs.«166549_j61830349193917_1_alg».proof.Proof.Gen.ReferenceIdeal
import proofs.«166549_j61830349193917_1_alg».proof.Proof.Gen.ReferenceIdeal.Run
import proofs.«166549_j61830349193917_1_alg».proof.Proof.Gen.ReferenceIdeal.Read
import proofs.«166549_j61830349193917_1_alg».proof.Proof.Gen.Pre_finite_inputs
import proofs.«166549_j61830349193917_1_alg».proof.Proof.KernelRun
import proofs.«166549_j61830349193917_1_alg».proof.Proof.HostFold
import proofs.«166549_j61830349193917_1_alg».proof.Proof.KernelValue
import proofs.«166549_j61830349193917_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The three frames and the idealization -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealized kernel is the kernel's own text read over the extended reals. -/
theorem preserves : Cert.preserves_Kernel_KernelIdeal := trivial

/-! ## The two results, as functions of the kernel program's argument arrays -/

/-- The atom output. -/
def resA (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v30) :=
  Cert.Spec.Aspec (m ((c.tc : Thread Cert.KernelIdeal.nD Cert.KernelIdeal.τ).loc Cert.KernelIdeal.main_arg0))
    (Host.scatterAdd (F := Ideal) (φ := .f32) Cert.KernelIdeal.scatter_S50000x50_S1000000x1_S1000000x50_1_0_0_1
      (broadcastInDim Cert.KernelIdeal.S50000x50 ![] Cert.KernelIdeal.Gen.bcast_S_S50000x50 (constant (F := Ideal) Cert.KernelIdeal.S_ .f32 0x00000000#32))
      (broadcastInDim Cert.KernelIdeal.S1000000x1 ![0] Cert.KernelIdeal.Gen.bcast_S1000000_S1000000x1_0 (m ((c.tc : Thread Cert.KernelIdeal.nD Cert.KernelIdeal.τ).loc Cert.KernelIdeal.main_arg2)))
      (Cert.Spec.PAspec (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- The pair output. -/
def resP (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v26_0) :=
  Cert.Spec.Pspec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))

/-! ## The value claim -/

/-- From memories that agree on the arguments both programs end with the atom output at `resA` and the pair output at
    `resP` of the arguments: the kernel program by its regions' row functions, the reference by its stages. -/
theorem algebraic : Cert.algebraic_KernelIdeal_ReferenceIdeal := by
  intro m ρ m' ρ' _ hagree
  refine ⟨resA m, resP m, ?_, ?_⟩
  · refine (θ_run Cert.KernelIdeal.defs _ _).mono (fun r h c => ?_) (Cert.KernelIdeal.Named.run_named (F := Ideal) m ρ)
    obtain ⟨hA, hP, hargs⟩ := h c
    exact ⟨hA.trans ((Cert.KernelIdeal.Fold.res_A m ρ c).trans (Cert.KernelIdeal.KValue.kernel_A m ρ c)),
      hP.trans ((Cert.KernelIdeal.Fold.res_P m ρ c).trans (Cert.KernelIdeal.KValue.kernel_P m ρ c)), hargs⟩
  · refine (θ_run Cert.ReferenceIdeal.defs _ _).mono (fun r h c => ?_) (Cert.ReferenceIdeal.Value.run (F := Ideal) m' ρ')
    obtain ⟨hA, hP, hargs⟩ := h c
    obtain ⟨a0, a1, a2, a3, a4, a5, a6, a7, a8, a9, a10, a11, a12, a13, a14, a15⟩ := hagree c
    refine ⟨hA.trans ?_, hP.trans ?_, hargs⟩
    · rw [Cert.ReferenceIdeal.Read.val_main_v18_eq, Cert.RefValue.ref_A, a0, a1, a2, a4, a5, a6, a7, a8, a9]
      rfl
    · rw [Cert.ReferenceIdeal.Read.val_main_v50_eq, Cert.RefValue.ref_P, a0, a1, a3, a10, a11, a12, a13, a14, a15]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
